-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x64 : Shape := ⟨3, ![8, 4096, 64]⟩
abbrev S_ : Shape := ⟨0, ![]⟩

class Facts : Prop where
  bcast_S_S8x4096x64 : S_.BroadcastsInDim S8x4096x64 (![] : Fin 0 → Fin S8x4096x64.rank)
  reducesTo_S8x4096x64_S_d0_1_2 : S8x4096x64.ReducesTo [0, 1, 2] S_
  h_S_ : 0 < S_.numel

variable [Facts]

def fn {F : FTy → Type} [FloatOps F] (main_arg0 : FVec F S8x4096x64 .f32) (main_arg1 : FVec F S8x4096x64 .f32) : IVec S_ 1 :=
  let main_v0 : FVec F S8x4096x64 .f32 := Host.absf main_arg0
  let main_cst : FVec F S_ .f32 := constant S_ .f32 0x7F800000#32
  let main_v1 : FVec F S8x4096x64 .f32 := broadcastInDim S8x4096x64 ![] bcast_S_S8x4096x64 main_cst
  let main_v2 : IVec S8x4096x64 1 := cmpf .olt main_v0 main_v1
  let main_c : IVec S_ 1 := constantI S_ 1 1#1
  let main_v3 : IVec S_ 1 := (fun x v => Host.reduce IntOp.andi x v reducesTo_S8x4096x64_S_d0_1_2 h_S_) main_v2 main_c
  let main_v4 : FVec F S8x4096x64 .f32 := Host.absf main_arg1
  let main_cst_0 : FVec F S_ .f32 := constant S_ .f32 0x7F800000#32
  let main_v5 : FVec F S8x4096x64 .f32 := broadcastInDim S8x4096x64 ![] bcast_S_S8x4096x64 main_cst_0
  let main_v6 : IVec S8x4096x64 1 := cmpf .olt main_v4 main_v5
  let main_c_1 : IVec S_ 1 := constantI S_ 1 1#1
  let main_v7 : IVec S_ 1 := (fun x v => Host.reduce IntOp.andi x v reducesTo_S8x4096x64_S_d0_1_2 h_S_) main_v6 main_c_1
  let main_v8 : IVec S_ 1 := andi main_v3 main_v7
  main_v8
-- ==== Kernel.lean ====
abbrev S8x4096x64 : Shape := ⟨3, ![8, 4096, 64]⟩
abbrev S8x1x4096 : Shape := ⟨3, ![8, 1, 4096]⟩
abbrev S1x1024x64 : Shape := ⟨3, ![1, 1024, 64]⟩
abbrev S1x1x1024 : Shape := ⟨3, ![1, 1, 1024]⟩
abbrev S1x1x4096 : Shape := ⟨3, ![1, 1, 4096]⟩
abbrev S1x1024 : Shape := ⟨2, ![1, 1024]⟩
abbrev S1x4096 : Shape := ⟨2, ![1, 4096]⟩
abbrev S1024x64 : Shape := ⟨2, ![1024, 64]⟩
abbrev S1024 : Shape := ⟨1, ![1024]⟩
abbrev S1024x1 : Shape := ⟨2, ![1024, 1]⟩
abbrev S64x1024 : Shape := ⟨2, ![64, 1024]⟩
abbrev S1024x1024 : Shape := ⟨2, ![1024, 1024]⟩
abbrev S8x4096 : Shape := ⟨2, ![8, 4096]⟩
abbrev S_ : Shape := ⟨0, ![]⟩
abbrev S8 : Shape := ⟨1, ![8]⟩

abbrev nBuf : Space → Nat
  | .hbm => 21
  | .vmem => 10
  | .smem => 0
  | _ => 0

abbrev bufTy : (tb : Table) → Fin (tcTables nBuf tb) → BufTy
  | .hbm, ⟨0, _⟩ => ⟨S8x4096x64, .f32⟩
  | .hbm, ⟨1, _⟩ => ⟨S8x4096x64, .f32⟩
  | .hbm, ⟨2, _⟩ => ⟨S8x1x4096, .f32⟩
  | .hbm, ⟨3, _⟩ => ⟨S8x1x4096, .f32⟩
  | .hbm, ⟨4, _⟩ => ⟨S8x4096, .f32⟩
  | .hbm, ⟨5, _⟩ => ⟨S8x4096, .f32⟩
  | .hbm, ⟨6, _⟩ => ⟨S_, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S8, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S1x1024x64, .f32⟩
  | .local _ .vmem, ⟨1, _⟩ => ⟨S1x1024x64, .f32⟩
  | .local _ .vmem, ⟨2, _⟩ => ⟨S1x1024x64, .f32⟩
  | .local _ .vmem, ⟨3, _⟩ => ⟨S1x1024x64, .f32⟩
  | .local _ .vmem, ⟨4, _⟩ => ⟨S1x1x1024, .f32⟩
  | .local _ .vmem, ⟨5, _⟩ => ⟨S1x1x1024, .f32⟩
  | .local _ .vmem, ⟨6, _⟩ => ⟨S1x1x4096, .f32⟩
  | .local _ .vmem, ⟨7, _⟩ => ⟨S1x1x4096, .f32⟩
  | .local _ .vmem, ⟨8, _⟩ => ⟨S1x1024, .f32⟩
  | .local _ .vmem, ⟨9, _⟩ => ⟨S1x4096, .f32⟩
  | _, _ => ⟨S8x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_cst_4 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_mult1 (i : grid0.Coords) : BitVec 32 :=
  let arg2 : BitVec 32 := BitVec.ofNat 32 (i 2).val
  let c1024_i32 : BitVec 32 := 1024#32
  let v42 : BitVec 32 := Scalar.muli arg2 c1024_i32
  v42
def k0_off1 (i : grid0.Coords) : Fin 2 → Nat :=
  let c0_19 : Index := 0#32
  let arg2 : BitVec 32 := BitVec.ofNat 32 (i 2).val
  let c1024_i32 : BitVec 32 := 1024#32
  let v42 : BitVec 32 := Scalar.muli arg2 c1024_i32
  let v43 : BitVec 32 := v42
  let v44 : Index := Scalar.indexCast v43
  ![0, v44.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  reduces_S1024x64_S1024 : S1024x64.Reduces [1] S1024
  shapeCasts_S1024_S1024x1 : S1024.ShapeCasts S1024x1
  transposes_S1024x1_p1_0_S1x1024 : S1024x1.Transposes [1, 0] S1x1024
  bitsLt_bf16_f32 : FTy.bits .bf16 < FTy.bits .f32
  transposes_S1024x64_p1_0_S64x1024 : S1024x64.Transposes [1, 0] S64x1024
  broadcasts_S1024x1_S1024x1024 : S1024x1.Broadcasts S1024x1024
  broadcasts_S1x1024_S1024x1024 : S1x1024.Broadcasts S1024x1024
  reduces_S1024x1024_S1024 : S1024x1024.Reduces [1] S1024
  reduces_S1024x1024_S1024_2 : S1024x1024.Reduces [0] S1024
  shapeCasts_S1024_S1x1024 : S1024.ShapeCasts S1x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  shapeCasts_S1x4096_S1x1x4096 : S1x4096.ShapeCasts S1x1x4096
  shapeCasts_S8x1x4096_S8x4096 : S8x1x4096.ShapeCasts S8x4096
  reducesTo_S8x4096_S8_d1 : S8x4096.ReducesTo [1] S8
  h_S_ : 0 < S_.numel
  bcast_S_S8 : S_.BroadcastsInDim S8 (![] : Fin 0 → Fin S8.rank)
  reducesTo_S8_S_d0 : S8.ReducesTo [0] S_
  dot_S1024x64_S64x1024_S1024x1024_1_0_0_1_n_n_wf : DotDims.WF S1024x64 S64x1024 S1024x1024 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1x1024.size a ≤ S1x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S8x4096x64.size a
  hwx0_0 : ∀ i : grid0.Coords, EltTy.bits .f32 = 32 ∨ (Rect.block (s := S8x4096x64) S1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x64.size a ≤ S8x4096x64.size a
  hwx0_1 : ∀ i : grid0.Coords, EltTy.bits .f32 = 32 ∨ (Rect.block (s := S8x4096x64) S1x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S8x1x4096.size a
  hwx0_2 : ∀ i : grid0.Coords, EltTy.bits .f32 = 32 ∨ (Rect.block (s := S8x1x4096) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S8x1x4096.size a
  hwx0_3 : ∀ i : grid0.Coords, EltTy.bits .f32 = 32 ∨ (Rect.block (s := S8x1x4096) S1x1x4096.size (cc0_transform_3 i) (hinb0_3 i)).WholeWords (EltTy.packing .f32)

variable [Facts₀]

def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf

abbrev win0_0 : Pipeline.Window sig grid0 :=
  Pipeline.Window.ofSpec (Memref.whole main_arg0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x4096x64 : Shape := ⟨3, ![8, 4096, 64]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩
abbrev S8 : Shape := ⟨1, ![8]⟩

abbrev nBuf : Space → Nat
  | .hbm => 41
  | .vmem => 0
  | .smem => 0
  | _ => 0

abbrev bufTy : (tb : Table) → Fin (tcTables nBuf tb) → BufTy
  | .hbm, ⟨0, _⟩ => ⟨S8x4096x64, .f32⟩
  | .hbm, ⟨1, _⟩ => ⟨S8x4096x64, .f32⟩
  | .hbm, ⟨2, _⟩ => ⟨S8x4096x64, .f32⟩
  | .hbm, ⟨3, _⟩ => ⟨S_, .f32⟩
  | .hbm, ⟨4, _⟩ => ⟨S8x4096, .f32⟩
  | .hbm, ⟨5, _⟩ => ⟨S8x4096x64, .f32⟩
  | .hbm, ⟨6, _⟩ => ⟨S_, .f32⟩
  | .hbm, ⟨7, _⟩ => ⟨S8x4096, .f32⟩
  | .hbm, ⟨8, _⟩ => ⟨S8x4096x4096, .f32⟩
  | .hbm, ⟨9, _⟩ => ⟨S8x4096x1, .f32⟩
  | .hbm, ⟨10, _⟩ => ⟨S8x1x4096, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096x4096, .f32⟩
  | .hbm, ⟨20, _⟩ => ⟨S8x4096x4096, .f32⟩
  | .hbm, ⟨21, _⟩ => ⟨S8x4096x4096, .f32⟩
  | .hbm, ⟨22, _⟩ => ⟨S_, .f32⟩
  | .hbm, ⟨23, _⟩ => ⟨S8x4096, .f32⟩
  | .hbm, ⟨24, _⟩ => ⟨S_, .f32⟩
  | .hbm, ⟨25, _⟩ => ⟨S8, .f32⟩
  | .hbm, ⟨26, _⟩ => ⟨S_, .f32⟩
  | .hbm, ⟨27, _⟩ => ⟨S8, .f32⟩
  | .hbm, ⟨28, _⟩ => ⟨S8, .f32⟩
  | .hbm, ⟨29, _⟩ => ⟨S_, .f32⟩
  | .hbm, ⟨30, _⟩ => ⟨S8x4096, .f32⟩
  | .hbm, ⟨31, _⟩ => ⟨S_, .f32⟩
  | .hbm, ⟨32, _⟩ => ⟨S8, .f32⟩
  | .hbm, ⟨33, _⟩ => ⟨S_, .f32⟩
  | .hbm, ⟨34, _⟩ => ⟨S8, .f32⟩
  | .hbm, ⟨35, _⟩ => ⟨S8, .f32⟩
  | .hbm, ⟨36, _⟩ => ⟨S8, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | _, _ => ⟨S8x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_v19 : Ref sig .tc := ⟨.hbm, 28, rfl⟩
abbrev main_cst_6 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_9 : Ref sig .tc := ⟨.hbm, 37, rfl⟩
abbrev main_v25 : Ref sig .tc := ⟨.hbm, 38, rfl⟩
abbrev main_cst_10 : Ref sig .tc := ⟨.hbm, 39, rfl⟩
abbrev main_v26 : Ref sig .tc := ⟨.hbm, 40, rfl⟩

abbrev nD : Nat := 1
abbrev τ : Topo := Topo.v7x

variable {F : FTy → Type} [FloatOps F]

class Facts₀ : Prop where
  reducesTo_S8x4096x64_S8x4096_d2 : S8x4096x64.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d1 : S8x4096x4096.ReducesTo [1] S8x4096
  reducesTo_S8x4096_S8_d1 : S8x4096.ReducesTo [1] S8
  bcast_S_S8 : S_.BroadcastsInDim S8 (![] : Fin 0 → Fin S8.rank)
  reducesTo_S8x4096x4096_S8x4096_d2 : S8x4096x4096.ReducesTo [2] S8x4096
  reducesTo_S8_S_d0 : S8.ReducesTo [0] S_
  dot_S8x4096x64_S8x4096x64_S8x4096x4096_2_2_1_1_0_0_wf : DotDims.WF S8x4096x64 S8x4096x64 S8x4096x4096 [2] [2] [1] [1] [0] [0]

variable [Facts₀]

def dot_S8x4096x64_S8x4096x64_S8x4096x4096_2_2_1_1_0_0 : DotDims S8x4096x64 S8x4096x64 S8x4096x4096 where
  lhsContracting := [2]
  rhsContracting := [2]
  lhsNonContracting := [1]
  rhsNonContracting := [1]
  lhsBatch := [0]
  rhsBatch := [0]
  wf := dot_S8x4096x64_S8x4096x64_S8x4096x4096_2_2_1_1_0_0_wf

class Facts : Prop extends Facts₀ where

variable [Facts]
-- ==== Proof.Pieces.lean ====
/-
  What one grid point leaves in the two accumulators and in the two output blocks, in each of the body's three control
  cases, as values of the point's two input blocks and of what the point before left: the stores the body makes, read
  back. The row accumulator (one row of 1024 running minima, one per point of the first cloud's block) is stored
  whole: the entrywise min of its previous contents, or of the +∞ row a reset has just stored, with the tile's row
  minima. The column accumulator (one row of 4096 running minima, one per point of the second cloud) is updated on the
  stretch of 1024 entries at the point's column offset only: there the entrywise min of its previous contents with the
  tile's column minima, elsewhere what it held (colUpd). Each output block is its accumulator after the point, under a
  reshape that puts a unit axis in front. Everything here holds for any float instance.
-/
import proofs.«124431_j6433861009596_1_alg».proof.Proof.Gen.KernelIdeal.Frame
import Idealize.ShloMosaic.Lib.Pipeline.Value
import Idealize.ShloMosaic.Lib.WritesUnit
import Idealize.ShloMosaic.Lib.Tactic

set_option maxRecDepth 16384

noncomputable section

namespace Cert.Chamfer.Pieces

open Idealize.ShloMosaic Idealize.ShloMosaic.TcCoe Idealize.SL.Sem
open Cert.KernelIdeal Cert.KernelIdeal.Gen

variable {F : FTy → Type} [FloatOps F]

/-- The column accumulator after one point: on the stretch of 1024 entries at the offsets off the body's update of what
    was there (the entrywise min with the tile's column minima cm, as the body's payload spells it), elsewhere the old
    contents. -/
def colUpd (off : Fin 2 → Nat) (inb : ∀ a, off a + S1x1024.size a ≤ S1x4096.size a) (cm : FVec F S1x1024 .f32)
    (old : Vec F S1x4096 .f32) : Vec F S1x4096 .f32 := fun y =>
  if h : ∀ a, off a ≤ (y a).val ∧ (y a).val < off a + S1x1024.size a then
    k0_pay2 cm (View.ld old (Rect.unit off S1x1024.size inb)) (Rect.unitLocal (s := S1x4096) (off := off) (size := S1x1024.size) y h)
  else old y

/-- The zero offsets of a rank-2 rectangle, as the constant function. -/
private theorem hz : (![0, 0] : Fin 2 → Nat) = fun _ => 0 := funext fun a => by fin_cases a <;> rfl

/-- The zero offsets of a rank-3 rectangle, as the constant function. -/
private theorem hz3 : (![0, 0, 0] : Fin 3 → Nat) = fun _ => 0 := funext fun a => by fin_cases a <;> rfl

section Generic

variable {sig' : RefSig} {κ : Kind} {sp : Space} {S : Shape} {e : EltTy} {Val : EltTy → Type} [∀ e, Nonempty (Val e)]

/-- A store through the whole-shape rectangle at zero offsets, made last, reads back as its payload, whatever the view,
    the earlier stores and what the buffer held before. -/
private theorem read_writes_cons_unit_zero (v : View sig' κ sp S e) (f : v.ty.Contents Val) {off : Fin S.rank → Nat}
    (h : off = fun _ => 0) (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h]

/-- A load of the whole shape after stores the last of which was of the whole shape reads that store's payload. -/
private theorem readCov_cons_unit_zero (v : View sig' κ sp S e) {off off' : Fin S.rank → Nat} (h : off = fun _ => 0)
    (h' : off' = fun _ => 0) (inb : ∀ a, off a + S.size a ≤ S.size a) (inb' : ∀ a, off' a + S.size a ≤ S.size a)
    (w : S.Idx → Val e) (L : List (View.Piece Val S e)) :
    v.readCov ((⟨Rect.unit off S.size inb, w⟩ : View.Piece Val S e) :: L) (Rect.unit off' S.size inb').toLoadRect = w := by
  rw [View.readCov_eq_canon_ld _ _ _ (fun y => ⟨_, List.mem_cons_self, View.mem_set_unit_zero h inb y⟩),
    View.canon_cons_unit_zero h, View.ld_unit_zero h']

end Generic

/-- The column accumulator's update read back: after stores that left old, one more store, through the stretch of 1024
    entries at the offsets off, of the body's fold of the tile's column minima cm with what a load of that stretch read
    of old, leaves colUpd: under the stretch the new store's payload at the index minus the offsets, elsewhere old. -/
private theorem read_colPiece {sig' : RefSig} {κ : Kind} {sp : Space} (v : View sig' κ sp S1x4096 .f32)
    (f : v.ty.Contents (Elt F)) (L : List (View.Piece (Elt F) S1x4096 .f32)) (off : Fin 2 → Nat)
    (inb : ∀ a, off a + S1x1024.size a ≤ S1x4096.size a) (cm : FVec F S1x1024 .f32) (got : Vec F S1x1024 .f32)
    (old : Vec F S1x4096 .f32) (hL : v.read (Elt F) (v.writes (Elt F) f L) = old)
    (hgot : got = View.ld old (Rect.unit off S1x1024.size inb)) :
    v.read (Elt F) (v.writes (Elt F) f ((⟨Rect.unit off S1x1024.size inb, k0_pay2 cm got⟩ : View.Piece (Elt F) S1x4096 .f32) :: L))
      = colUpd off inb cm old := by
  subst hgot
  subst hL
  funext y
  rw [View.read_writes_cons_unit (heq := rfl)]
  rfl

/-- Case A: the row accumulator ends at the entrywise min of the +∞ row it was reset to and the tile's row minima. -/
theorem rowAcc_A (c : Dev nD) (i : grid0.Coords) (arg3 : Memref sig .tc .vmem S1x1024x64 .f32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x1x4096 .f32) (harg6 : arg6.IsWhole) (arg7 : Memref sig .tc .vmem S1x1024 .f32) (harg7 : arg7.IsWhole) (arg8 : Memref sig .tc .vmem S1x4096 .f32) (harg8 : arg8.IsWhole) (hc0 : cond0_0 i) (hc1 : cond0_1 i)
    (x0 x1 : Vec F S1x1024x64 .f32) :
    sout0_A_0 c i arg3 harg3 arg4 harg4 arg5 harg5 arg6 harg6 arg7 harg7 arg8 harg8 hc0 hc1 x0 x1 = k0_pay1 (k0_pay9 x0 x1) k0_pay6 := by
  unfold sout0_A_0
  rw [View.read_writes_eq_canon _ _ _ (scover0_A_0 c i arg3 harg3 arg4 harg4 arg5 harg5 arg6 harg6 arg7 harg7 arg8 harg8 hc0 hc1 x0 x1)]
  unfold kernelRun0_A
  dsimp only
  sl_unfold_run_names
  rw [View.canon_cons_unit_zero (S := S1x1024) hz, View.readCov_unit_zero (S := S1x1024) _ hz]
  simp only [View.readAt_eq_ld, harg3.read_unread, harg4.read_unread, View.ld_unit_zero (S := S1x1024x64) hz3]

/-- Case A: the column accumulator ends at the +∞ row it was reset to, its stretch at the point's column offset folded with the tile's
    column minima. -/
theorem colAcc_A (c : Dev nD) (i : grid0.Coords) (arg3 : Memref sig .tc .vmem S1x1024x64 .f32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x1x4096 .f32) (harg6 : arg6.IsWhole) (arg7 : Memref sig .tc .vmem S1x1024 .f32) (harg7 : arg7.IsWhole) (arg8 : Memref sig .tc .vmem S1x4096 .f32) (harg8 : arg8.IsWhole) (hc0 : cond0_0 i) (hc1 : cond0_1 i)
    (x0 x1 : Vec F S1x1024x64 .f32) :
    sout0_A_1 c i arg3 harg3 arg4 harg4 arg5 harg5 arg6 harg6 arg7 harg7 arg8 harg8 hc0 hc1 x0 x1 = colUpd (k0_off1 i) (k0_off1_inb i) (k0_pay8 x0 x1) k0_pay5 := by
  unfold sout0_A_1
  unfold kernelRun0_A
  dsimp only
  sl_unfold_run_names
  simp only [View.readAt_eq_ld, harg3.read_unread, harg4.read_unread, View.ld_unit_zero (S := S1x1024x64) hz3,
    read_writes_cons_unit_zero (S := S1x4096) arg8.view _ hz]
  exact read_colPiece VS0_1 VS0_1.junk _ (k0_off1 i) (k0_off1_inb i) (k0_pay8 x0 x1) _ k0_pay5
    (read_writes_cons_unit_zero (S := S1x4096) VS0_1 _ hz _ _ _) rfl

/-- Case A: the first output's block is the row accumulator as the point leaves it, with a unit axis put in front. -/
theorem rowOut_A (c : Dev nD) (i : grid0.Coords) (arg3 : Memref sig .tc .vmem S1x1024x64 .f32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x1x4096 .f32) (harg6 : arg6.IsWhole) (arg7 : Memref sig .tc .vmem S1x1024 .f32) (harg7 : arg7.IsWhole) (arg8 : Memref sig .tc .vmem S1x4096 .f32) (harg8 : arg8.IsWhole) (hc0 : cond0_0 i) (hc1 : cond0_1 i)
    (x0 x1 : Vec F S1x1024x64 .f32) :
    out0_A_2 c i arg3 harg3 arg4 harg4 arg5 harg5 arg6 harg6 arg7 harg7 arg8 harg8 hc0 hc1 x0 x1 = k0_pay3 (k0_pay1 (k0_pay9 x0 x1) k0_pay6) := by
  unfold out0_A_2
  rw [View.read_writes_eq_canon _ _ _ (cover0_A_2 c i arg3 harg3 arg4 harg4 arg5 harg5 arg6 harg6 arg7 harg7 arg8 harg8 hc0 hc1 x0 x1)]
  unfold kernelRun0_A
  dsimp only
  sl_unfold_run_names
  rw [View.canon_unit_zero (S := S1x1x1024) hz3, readCov_cons_unit_zero (S := S1x1024) _ hz hz,
    View.readCov_unit_zero (S := S1x1024) _ hz]
  simp only [View.readAt_eq_ld, harg3.read_unread, harg4.read_unread, View.ld_unit_zero (S := S1x1024x64) hz3]

/-- Case A: the second output's block is the column accumulator as the point leaves it, with a unit axis put in front. -/
theorem colOut_A (c : Dev nD) (i : grid0.Coords) (arg3 : Memref sig .tc .vmem S1x1024x64 .f32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x1x4096 .f32) (harg6 : arg6.IsWhole) (arg7 : Memref sig .tc .vmem S1x1024 .f32) (harg7 : arg7.IsWhole) (arg8 : Memref sig .tc .vmem S1x4096 .f32) (harg8 : arg8.IsWhole) (hc0 : cond0_0 i) (hc1 : cond0_1 i)
    (x0 x1 : Vec F S1x1024x64 .f32) :
    out0_A_3 c i arg3 harg3 arg4 harg4 arg5 harg5 arg6 harg6 arg7 harg7 arg8 harg8 hc0 hc1 x0 x1 = k0_pay4 (colUpd (k0_off1 i) (k0_off1_inb i) (k0_pay8 x0 x1) k0_pay5) := by
  unfold out0_A_3
  rw [View.read_writes_eq_canon _ _ _ (cover0_A_3 c i arg3 harg3 arg4 harg4 arg5 harg5 arg6 harg6 arg7 harg7 arg8 harg8 hc0 hc1 x0 x1)]
  unfold kernelRun0_A
  dsimp only
  sl_unfold_run_names
  rw [View.canon_unit_zero (S := S1x1x4096) hz3]
  refine congrArg k0_pay4 ?_
  unfold View.readCov
  rw [View.readAt_eq_ld, View.ld_unit_zero (S := S1x4096) hz]
  simp only [View.readAt_eq_ld, harg3.read_unread, harg4.read_unread, View.ld_unit_zero (S := S1x1024x64) hz3,
    read_writes_cons_unit_zero (S := S1x4096) arg8.view _ hz]
  exact read_colPiece arg8.view arg8.view.junk _ (k0_off1 i) (k0_off1_inb i) (k0_pay8 x0 x1) _ k0_pay5
    (read_writes_cons_unit_zero (S := S1x4096) arg8.view _ hz _ _ _) rfl

/-- Case B: the row accumulator ends at the entrywise min of what the point before left and the tile's row minima. -/
theorem rowAcc_B (c : Dev nD) (i : grid0.Coords) (arg3 : Memref sig .tc .vmem S1x1024x64 .f32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x1x4096 .f32) (harg6 : arg6.IsWhole) (arg7 : Memref sig .tc .vmem S1x1024 .f32) (harg7 : arg7.IsWhole) (arg8 : Memref sig .tc .vmem S1x4096 .f32) (harg8 : arg8.IsWhole) (hc0 : ¬cond0_0 i) (hc1 : ¬cond0_1 i)
    (x0 x1 : Vec F S1x1024x64 .f32) (xs0 : Vec F S1x1024 .f32) (xs1 : Vec F S1x4096 .f32) :
    sout0_B_0 c i arg3 harg3 arg4 harg4 arg5 harg5 arg6 harg6 arg7 harg7 arg8 harg8 hc0 hc1 x0 x1 xs0 xs1 = k0_pay1 (k0_pay9 x0 x1) xs0 := by
  unfold sout0_B_0
  rw [View.read_writes_eq_canon _ _ _ (scover0_B_0 c i arg3 harg3 arg4 harg4 arg5 harg5 arg6 harg6 arg7 harg7 arg8 harg8 hc0 hc1 x0 x1 xs0 xs1)]
  unfold kernelRun0_B
  dsimp only
  sl_unfold_run_names
  rw [View.canon_unit_zero (S := S1x1024) hz]
  simp only [View.readAt_eq_ld, harg3.read_unread, harg4.read_unread, harg7.read_unread,
    View.ld_unit_zero (S := S1x1024x64) hz3, View.ld_unit_zero (S := S1x1024) hz]

/-- Case B: the column accumulator ends at what the point before left, its stretch at the point's column offset folded with the tile's
    column minima. -/
theorem colAcc_B (c : Dev nD) (i : grid0.Coords) (arg3 : Memref sig .tc .vmem S1x1024x64 .f32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x1x4096 .f32) (harg6 : arg6.IsWhole) (arg7 : Memref sig .tc .vmem S1x1024 .f32) (harg7 : arg7.IsWhole) (arg8 : Memref sig .tc .vmem S1x4096 .f32) (harg8 : arg8.IsWhole) (hc0 : ¬cond0_0 i) (hc1 : ¬cond0_1 i)
    (x0 x1 : Vec F S1x1024x64 .f32) (xs0 : Vec F S1x1024 .f32) (xs1 : Vec F S1x4096 .f32) :
    sout0_B_1 c i arg3 harg3 arg4 harg4 arg5 harg5 arg6 harg6 arg7 harg7 arg8 harg8 hc0 hc1 x0 x1 xs0 xs1 = colUpd (k0_off1 i) (k0_off1_inb i) (k0_pay8 x0 x1) xs1 := by
  unfold sout0_B_1
  unfold kernelRun0_B
  dsimp only
  sl_unfold_run_names
  simp only [View.readAt_eq_ld, harg3.read_unread, harg4.read_unread, harg8.read_unread,
    View.ld_unit_zero (S := S1x1024x64) hz3]
  exact read_colPiece arg8.view (harg8.unread xs1) [] (k0_off1 i) (k0_off1_inb i) (k0_pay8 x0 x1) _ xs1 (harg8.read_unread xs1) rfl

/-- Case B: the first output's block is the row accumulator as the point leaves it, with a unit axis put in front. -/
theorem rowOut_B (c : Dev nD) (i : grid0.Coords) (arg3 : Memref sig .tc .vmem S1x1024x64 .f32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x1x4096 .f32) (harg6 : arg6.IsWhole) (arg7 : Memref sig .tc .vmem S1x1024 .f32) (harg7 : arg7.IsWhole) (arg8 : Memref sig .tc .vmem S1x4096 .f32) (harg8 : arg8.IsWhole) (hc0 : ¬cond0_0 i) (hc1 : ¬cond0_1 i)
    (x0 x1 : Vec F S1x1024x64 .f32) (xs0 : Vec F S1x1024 .f32) (xs1 : Vec F S1x4096 .f32) :
    out0_B_2 c i arg3 harg3 arg4 harg4 arg5 harg5 arg6 harg6 arg7 harg7 arg8 harg8 hc0 hc1 x0 x1 xs0 xs1 = k0_pay3 (k0_pay1 (k0_pay9 x0 x1) xs0) := by
  unfold out0_B_2
  rw [View.read_writes_eq_canon _ _ _ (cover0_B_2 c i arg3 harg3 arg4 harg4 arg5 harg5 arg6 harg6 arg7 harg7 arg8 harg8 hc0 hc1 x0 x1 xs0 xs1)]
  unfold kernelRun0_B
  dsimp only
  sl_unfold_run_names
  rw [View.canon_unit_zero (S := S1x1x1024) hz3, readCov_cons_unit_zero (S := S1x1024) _ hz hz]
  simp only [View.readAt_eq_ld, harg3.read_unread, harg4.read_unread, harg7.read_unread,
    View.ld_unit_zero (S := S1x1024x64) hz3, View.ld_unit_zero (S := S1x1024) hz]

/-- Case B: the second output's block is the column accumulator as the point leaves it, with a unit axis put in front. -/
theorem colOut_B (c : Dev nD) (i : grid0.Coords) (arg3 : Memref sig .tc .vmem S1x1024x64 .f32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x1x4096 .f32) (harg6 : arg6.IsWhole) (arg7 : Memref sig .tc .vmem S1x1024 .f32) (harg7 : arg7.IsWhole) (arg8 : Memref sig .tc .vmem S1x4096 .f32) (harg8 : arg8.IsWhole) (hc0 : ¬cond0_0 i) (hc1 : ¬cond0_1 i)
    (x0 x1 : Vec F S1x1024x64 .f32) (xs0 : Vec F S1x1024 .f32) (xs1 : Vec F S1x4096 .f32) :
    out0_B_3 c i arg3 harg3 arg4 harg4 arg5 harg5 arg6 harg6 arg7 harg7 arg8 harg8 hc0 hc1 x0 x1 xs0 xs1 = k0_pay4 (colUpd (k0_off1 i) (k0_off1_inb i) (k0_pay8 x0 x1) xs1) := by
  unfold out0_B_3
  rw [View.read_writes_eq_canon _ _ _ (cover0_B_3 c i arg3 harg3 arg4 harg4 arg5 harg5 arg6 harg6 arg7 harg7 arg8 harg8 hc0 hc1 x0 x1 xs0 xs1)]
  unfold kernelRun0_B
  dsimp only
  sl_unfold_run_names
  rw [View.canon_unit_zero (S := S1x1x4096) hz3]
  refine congrArg k0_pay4 ?_
  rw [View.readAt_eq_ld, View.ld_unit_zero (S := S1x4096) hz]
  simp only [View.readAt_eq_ld, harg3.read_unread, harg4.read_unread, harg8.read_unread,
    View.ld_unit_zero (S := S1x1024x64) hz3]
  exact read_colPiece arg8.view (harg8.unread xs1) [] (k0_off1 i) (k0_off1_inb i) (k0_pay8 x0 x1) _ xs1 (harg8.read_unread xs1) rfl

/-- Case C: the row accumulator ends at the entrywise min of the +∞ row it was reset to and the tile's row minima. -/
theorem rowAcc_C (c : Dev nD) (i : grid0.Coords) (arg3 : Memref sig .tc .vmem S1x1024x64 .f32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x1x4096 .f32) (harg6 : arg6.IsWhole) (arg7 : Memref sig .tc .vmem S1x1024 .f32) (harg7 : arg7.IsWhole) (arg8 : Memref sig .tc .vmem S1x4096 .f32) (harg8 : arg8.IsWhole) (hc0 : ¬cond0_0 i) (hc1 : cond0_1 i)
    (x0 x1 : Vec F S1x1024x64 .f32) (xs1 : Vec F S1x4096 .f32) :
    sout0_C_0 c i arg3 harg3 arg4 harg4 arg5 harg5 arg6 harg6 arg7 harg7 arg8 harg8 hc0 hc1 x0 x1 xs1 = k0_pay1 (k0_pay9 x0 x1) k0_pay6 := by
  unfold sout0_C_0
  rw [View.read_writes_eq_canon _ _ _ (scover0_C_0 c i arg3 harg3 arg4 harg4 arg5 harg5 arg6 harg6 arg7 harg7 arg8 harg8 hc0 hc1 x0 x1 xs1)]
  unfold kernelRun0_C
  dsimp only
  sl_unfold_run_names
  rw [View.canon_cons_unit_zero (S := S1x1024) hz, View.readCov_unit_zero (S := S1x1024) _ hz]
  simp only [View.readAt_eq_ld, harg3.read_unread, harg4.read_unread, View.ld_unit_zero (S := S1x1024x64) hz3]

/-- Case C: the column accumulator ends at what the point before left, its stretch at the point's column offset folded with the tile's
    column minima. -/
theorem colAcc_C (c : Dev nD) (i : grid0.Coords) (arg3 : Memref sig .tc .vmem S1x1024x64 .f32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x1x4096 .f32) (harg6 : arg6.IsWhole) (arg7 : Memref sig .tc .vmem S1x1024 .f32) (harg7 : arg7.IsWhole) (arg8 : Memref sig .tc .vmem S1x4096 .f32) (harg8 : arg8.IsWhole) (hc0 : ¬cond0_0 i) (hc1 : cond0_1 i)
    (x0 x1 : Vec F S1x1024x64 .f32) (xs1 : Vec F S1x4096 .f32) :
    sout0_C_1 c i arg3 harg3 arg4 harg4 arg5 harg5 arg6 harg6 arg7 harg7 arg8 harg8 hc0 hc1 x0 x1 xs1 = colUpd (k0_off1 i) (k0_off1_inb i) (k0_pay8 x0 x1) xs1 := by
  unfold sout0_C_1
  unfold kernelRun0_C
  dsimp only
  sl_unfold_run_names
  simp only [View.readAt_eq_ld, harg3.read_unread, harg4.read_unread, harg8.read_unread,
    View.ld_unit_zero (S := S1x1024x64) hz3]
  exact read_colPiece arg8.view (harg8.unread xs1) [] (k0_off1 i) (k0_off1_inb i) (k0_pay8 x0 x1) _ xs1 (harg8.read_unread xs1) rfl

/-- Case C: the first output's block is the row accumulator as the point leaves it, with a unit axis put in front. -/
theorem rowOut_C (c : Dev nD) (i : grid0.Coords) (arg3 : Memref sig .tc .vmem S1x1024x64 .f32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x1x4096 .f32) (harg6 : arg6.IsWhole) (arg7 : Memref sig .tc .vmem S1x1024 .f32) (harg7 : arg7.IsWhole) (arg8 : Memref sig .tc .vmem S1x4096 .f32) (harg8 : arg8.IsWhole) (hc0 : ¬cond0_0 i) (hc1 : cond0_1 i)
    (x0 x1 : Vec F S1x1024x64 .f32) (xs1 : Vec F S1x4096 .f32) :
    out0_C_2 c i arg3 harg3 arg4 harg4 arg5 harg5 arg6 harg6 arg7 harg7 arg8 harg8 hc0 hc1 x0 x1 xs1 = k0_pay3 (k0_pay1 (k0_pay9 x0 x1) k0_pay6) := by
  unfold out0_C_2
  rw [View.read_writes_eq_canon _ _ _ (cover0_C_2 c i arg3 harg3 arg4 harg4 arg5 harg5 arg6 harg6 arg7 harg7 arg8 harg8 hc0 hc1 x0 x1 xs1)]
  unfold kernelRun0_C
  dsimp only
  sl_unfold_run_names
  rw [View.canon_unit_zero (S := S1x1x1024) hz3, readCov_cons_unit_zero (S := S1x1024) _ hz hz,
    View.readCov_unit_zero (S := S1x1024) _ hz]
  simp only [View.readAt_eq_ld, harg3.read_unread, harg4.read_unread, View.ld_unit_zero (S := S1x1024x64) hz3]

/-- Case C: the second output's block is the column accumulator as the point leaves it, with a unit axis put in front. -/
theorem colOut_C (c : Dev nD) (i : grid0.Coords) (arg3 : Memref sig .tc .vmem S1x1024x64 .f32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x1x4096 .f32) (harg6 : arg6.IsWhole) (arg7 : Memref sig .tc .vmem S1x1024 .f32) (harg7 : arg7.IsWhole) (arg8 : Memref sig .tc .vmem S1x4096 .f32) (harg8 : arg8.IsWhole) (hc0 : ¬cond0_0 i) (hc1 : cond0_1 i)
    (x0 x1 : Vec F S1x1024x64 .f32) (xs1 : Vec F S1x4096 .f32) :
    out0_C_3 c i arg3 harg3 arg4 harg4 arg5 harg5 arg6 harg6 arg7 harg7 arg8 harg8 hc0 hc1 x0 x1 xs1 = k0_pay4 (colUpd (k0_off1 i) (k0_off1_inb i) (k0_pay8 x0 x1) xs1) := by
  unfold out0_C_3
  rw [View.read_writes_eq_canon _ _ _ (cover0_C_3 c i arg3 harg3 arg4 harg4 arg5 harg5 arg6 harg6 arg7 harg7 arg8 harg8 hc0 hc1 x0 x1 xs1)]
  unfold kernelRun0_C
  dsimp only
  sl_unfold_run_names
  rw [View.canon_unit_zero (S := S1x1x4096) hz3]
  refine congrArg k0_pay4 ?_
  rw [View.readAt_eq_ld, View.ld_unit_zero (S := S1x4096) hz]
  simp only [View.readAt_eq_ld, harg3.read_unread, harg4.read_unread, harg8.read_unread,
    View.ld_unit_zero (S := S1x1024x64) hz3]
  exact read_colPiece arg8.view (harg8.unread xs1) [] (k0_off1 i) (k0_off1_inb i) (k0_pay8 x0 x1) _ xs1 (harg8.read_unread xs1) rfl

end Cert.Chamfer.Pieces

end
-- ==== Proof.ChamferSpec.lean ====
/-
  The mathematics both programs share, stated over plain index types and free of either program.

  Two clouds of 4096 points with 64 coordinates each are compared batch by batch. The distance of a point u of the
  first cloud to a point v of the second is taken through the expansion sqrt (max ((|u|² + |v|²) − 2·⟨u, v⟩) 0);
  for each u the least distance over all v is kept, for each v the least over all u, and the two families of minima
  are averaged. One program takes each minimum in one pass over the 4096 candidates, the other in four passes over
  1024 candidates each, folding the passes into an accumulator that starts at +∞. A minimum is carried here by its
  universal property (IsGlb): a is the minimum of f over the indices satisfying P when the lower bounds of a are
  exactly the common lower bounds of those f j. The minimum over no index is +∞, the fold of min from +∞ over a whole
  finite type is the minimum over all of it, and the min of two minima is the minimum over the union of their index
  sets: these three facts are all the order theory the comparison needs, and none of them asks the values to be
  finite.
-/
import Idealize.ShloMosaic.PureOps.Ideal
import Idealize.ShloMosaic.PureOps.Ideal.Laws
import Idealize.ShloMosaic.Lib.ValueIdx
import Mathlib.Data.Finset.Fold

noncomputable section

namespace Cert.Chamfer

open Idealize.ShloMosaic

/-- The value a is the greatest lower bound of the values f j over the indices j that satisfy P. -/
def IsGlb {ι : Type} (P : ι → Prop) (f : ι → EReal) (a : EReal) : Prop :=
  ∀ b : EReal, b ≤ a ↔ ∀ j, P j → b ≤ f j

/-- A family has at most one greatest lower bound. -/
theorem IsGlb.unique {ι : Type} {P : ι → Prop} {f : ι → EReal} {a a' : EReal} (h : IsGlb P f a) (h' : IsGlb P f a') :
    a = a' :=
  le_antisymm ((h' a).mpr ((h a).mp le_rfl)) ((h a').mpr ((h' a').mp le_rfl))

/-- The bound does not see how the index set is described. -/
theorem IsGlb.of_iff {ι : Type} {P Q : ι → Prop} {f : ι → EReal} {a : EReal} (h : IsGlb P f a) (hPQ : ∀ j, Q j ↔ P j) :
    IsGlb Q f a := fun b =>
  (h b).trans ⟨fun H j hj => H j ((hPQ j).mp hj), fun H j hj => H j ((hPQ j).mpr hj)⟩

/-- Over no index the greatest lower bound is +∞. -/
theorem isGlb_top {ι : Type} {P : ι → Prop} (f : ι → EReal) (hP : ∀ j, ¬P j) : IsGlb P f ⊤ := fun b =>
  ⟨fun _ j hj => absurd hj (hP j), fun _ => le_top⟩

/-- The fold of min from +∞ over every index of a finite type is the greatest lower bound over all of them. -/
theorem isGlb_fold_min {ι : Type} [Fintype ι] (f : ι → EReal) :
    IsGlb (fun _ => True) f ((Finset.univ : Finset ι).fold min ⊤ f) := fun b => by
  rw [Finset.le_fold_min]
  exact ⟨fun h j _ => h.2 j (Finset.mem_univ j), fun h => ⟨le_top, fun j _ => h j trivial⟩⟩

/-- The min of the bound over P and the bound of a further family g, whose values are those of f along e, is the bound
    over P together with the range of e. -/
theorem IsGlb.min_range {ι κ : Type} {P Q : ι → Prop} {f : ι → EReal} {g : κ → EReal} {a a' : EReal} (e : κ → ι)
    (h : IsGlb P f a) (h' : IsGlb (fun _ => True) g a') (hg : ∀ k, g k = f (e k))
    (hQ : ∀ j, Q j ↔ P j ∨ ∃ k, j = e k) : IsGlb Q f (min a a') := by
  intro b
  rw [le_min_iff, h b, h' b]
  constructor
  · rintro ⟨h1, h2⟩ j hj
    rcases (hQ j).mp hj with hp | ⟨k, rfl⟩
    · exact h1 j hp
    · rw [← hg]; exact h2 k trivial
  · intro hall
    exact ⟨fun j hj => hall j ((hQ j).mpr (Or.inl hj)),
      fun k _ => by rw [hg]; exact hall _ ((hQ _).mpr (Or.inr ⟨k, rfl⟩))⟩

/-- The word both programs start a minimum from denotes +∞. -/
theorem ofBits_inf : Ideal.ofBits .f32 0x7F800000#32 = (⊤ : EReal) := by
  simp [Ideal.ofBits, Ideal.ieee]

/-- The distance of two points of 64 coordinates as both programs spell it: the sum of the two squared norms, less
    twice the inner product, clamped at zero from below, under the square root. The two literals stay words: the same
    word stands on both sides and is never evaluated. -/
def dist (u v : Fin 64 → EReal) : EReal :=
  Ideal.sqrt (max (((∑ k : Fin 64, u k * u k) + (∑ k : Fin 64, v k * v k))
    - Ideal.ofBits .f32 0x40000000#32 * (∑ k : Fin 64, u k * v k)) (Ideal.ofBits .f32 0x00000000#32))

/-- Entry j of block k, when an axis of 4096 entries is cut into four consecutive blocks of 1024. -/
def inBlk (k : Fin 4) (j : Fin 1024) : Fin 4096 := ⟨1024 * k.val + j.val, by have := k.isLt; have := j.isLt; omega⟩

@[simp] theorem inBlk_val (k : Fin 4) (j : Fin 1024) : (inBlk k j).val = 1024 * k.val + j.val := rfl

/-- Every entry of the axis is an entry of exactly the block its quotient by 1024 names. -/
theorem exists_inBlk (n : Fin 4096) : ∃ (k : Fin 4) (j : Fin 1024), n = inBlk k j :=
  ⟨⟨n.val / 1024, by have := n.isLt; omega⟩, ⟨n.val % 1024, Nat.mod_lt _ (by decide)⟩, Fin.ext (by
    show n.val = 1024 * (n.val / 1024) + n.val % 1024; omega)⟩

/-- The closing average both programs end with, over the two families of minima laid out as 8 by 4096 arrays: per batch
    the mean of the column minima plus the mean of the row minima (each a sum from the zero word divided by the word
    for 4096), then the mean over the 8 batches (a sum from zero divided by the word for 8). The shape facts are
    arguments, so that either program applies it at its own. -/
def average (hR : (⟨2, ![8, 4096]⟩ : Shape).ReducesTo [1] (⟨1, ![8]⟩ : Shape)) (h0 : 0 < (⟨0, ![]⟩ : Shape).numel)
    (hb : (⟨0, ![]⟩ : Shape).BroadcastsInDim (⟨1, ![8]⟩ : Shape) (![] : Fin 0 → Fin (⟨1, ![8]⟩ : Shape).rank))
    (hr : (⟨1, ![8]⟩ : Shape).ReducesTo [0] (⟨0, ![]⟩ : Shape))
    (colMin rowMin : FVec Ideal (⟨2, ![8, 4096]⟩ : Shape) .f32) : FVec Ideal (⟨0, ![]⟩ : Shape) .f32 :=
  Host.divf
    (Host.reduceAdd
      (addf
        (Host.divf (Host.reduceAdd colMin (constant (F := Ideal) (⟨0, ![]⟩ : Shape) .f32 0x00000000#32) hR h0)
          (broadcastInDim (⟨1, ![8]⟩ : Shape) ![] hb (constant (F := Ideal) (⟨0, ![]⟩ : Shape) .f32 0x45800000#32)))
        (Host.divf (Host.reduceAdd rowMin (constant (F := Ideal) (⟨0, ![]⟩ : Shape) .f32 0x00000000#32) hR h0)
          (broadcastInDim (⟨1, ![8]⟩ : Shape) ![] hb (constant (F := Ideal) (⟨0, ![]⟩ : Shape) .f32 0x45800000#32))))
      (constant (F := Ideal) (⟨0, ![]⟩ : Shape) .f32 0x00000000#32) hr h0)
    (constant (F := Ideal) (⟨0, ![]⟩ : Shape) .f32 0x41000000#32)

end Cert.Chamfer

end
-- ==== Proof.Tile.lean ====
/-
  The body's payloads read entry by entry over the extended reals. For the two input blocks of a grid point, a block x0
  of 1024 points of the first cloud and a block x1 of 1024 points of the second, the body forms the 1024 by 1024 tile of
  pairwise distances, entry (r, q) the distance of x0's point r to x1's point q through the squared-norm expansion; the
  conversion of the operands to a narrower float format before the matrix product is the identity here, and the product
  into a zero accumulator is the plain sum of 64 products. From the tile it takes the least entry of every row and the
  least entry of every column, each a fold of min from +∞, hence a greatest lower bound. The accumulator updates are
  entrywise minima, the two reset values are +∞ everywhere, and the payloads stored to the output blocks only put a
  unit axis in front.
-/
import proofs.«124431_j6433861009596_1_alg».proof.Proof.Gen.KernelIdeal.Skeleton
import proofs.«124431_j6433861009596_1_alg».proof.Proof.ChamferSpec
import Idealize.ShloMosaic.Lib.Pipeline.Value
import Idealize.ShloMosaic.Lib.ValueIdx
import Idealize.ShloMosaic.Lib.ValueLayout
import Idealize.ShloMosaic.PureOps.Ideal.Laws

noncomputable section

namespace Cert.Chamfer.Tile

open Idealize.ShloMosaic Idealize.ShloMosaic.ValueIdx
open Cert.KernelIdeal Cert.KernelIdeal.Gen

/-! ## Layout operations at an index -/

section Layout
variable {α : Type}

/-- A vector of a entries cast to a column reads, at (i, 0), the entry i. -/
private theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast over b columns reads, at (p, c), the column's entry p. -/
private theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The sum along the rows of a 1024 by 64 array, at r, is the sum of row r's 64 entries. -/
private theorem rowSum_apply (v : FVec Ideal S1024x64 .f32) (hφ : FKind.Formats .f32)
    (hacc : (0x00000000#32 : BitVec 32) = FKind.add.neutral .f32 hφ) (r : Fin 1024) :
    multiReduction (F := Ideal) .add [1] S1024 v 0x00000000#32 reduces_S1024x64_S1024 hφ hacc (ix1 r)
      = ∑ k : Fin 64, v (ix2 r k) := by
  refine (Ideal.multiReduction_add_single v _ reduces_S1024x64_S1024 hφ hacc (ix1 r)).trans ?_
  refine Finset.sum_congr rfl fun k _ => congrArg v (funext fun a => Fin.ext ?_)
  match a with
  | ⟨0, _⟩ => rfl
  | ⟨1, _⟩ => rfl

/-! ## The matrix product at an index -/

/-- The left operand's index of the product, on its row axis, is the result's row. -/
private theorem lhs_mm_0 (i : S1024x1024.Idx) (q : dot_S1024x64_S64x1024_S1024x1024_1_0_0_1_n_n.contr.Idx) :
    (dot_S1024x64_S64x1024_S1024x1024_1_0_0_1_n_n.lhsIdx i q 0).val = (i 0).val := by
  unfold DotDims.lhsIdx
  rw [dif_neg (show ¬(0 : Fin S1024x64.rank) ∈ dot_S1024x64_S64x1024_S1024x1024_1_0_0_1_n_n.lhsBatch by decide), dif_pos (show (0 : Fin S1024x64.rank) ∈ dot_S1024x64_S64x1024_S1024x1024_1_0_0_1_n_n.lhsNonContracting by decide)]
  rfl
/-- The left operand's index, on its contracted axis, is the contraction position. -/
private theorem lhs_mm_1 (i : S1024x1024.Idx) (q : dot_S1024x64_S64x1024_S1024x1024_1_0_0_1_n_n.contr.Idx) :
    (dot_S1024x64_S64x1024_S1024x1024_1_0_0_1_n_n.lhsIdx i q 1).val = (q ⟨0, by decide⟩).val :=
  dot_S1024x64_S64x1024_S1024x1024_1_0_0_1_n_n.lhsIdx_val_of_single rfl i q
/-- The right operand's index, on its contracted axis, is the contraction position. -/
private theorem rhs_mm_0 (i : S1024x1024.Idx) (q : dot_S1024x64_S64x1024_S1024x1024_1_0_0_1_n_n.contr.Idx) :
    (dot_S1024x64_S64x1024_S1024x1024_1_0_0_1_n_n.rhsIdx i q 0).val = (q ⟨0, by decide⟩).val :=
  dot_S1024x64_S64x1024_S1024x1024_1_0_0_1_n_n.rhsIdx_val_of_single rfl i q
/-- The right operand's index, on its column axis, is the result's column. -/
private theorem rhs_mm_1 (i : S1024x1024.Idx) (q : dot_S1024x64_S64x1024_S1024x1024_1_0_0_1_n_n.contr.Idx) :
    (dot_S1024x64_S64x1024_S1024x1024_1_0_0_1_n_n.rhsIdx i q 1).val = (i 1).val := by
  unfold DotDims.rhsIdx
  rw [dif_neg (show ¬(1 : Fin S64x1024.rank) ∈ dot_S1024x64_S64x1024_S1024x1024_1_0_0_1_n_n.rhsBatch by decide), dif_pos (show (1 : Fin S64x1024.rank) ∈ dot_S1024x64_S64x1024_S1024x1024_1_0_0_1_n_n.rhsNonContracting by decide)]
  rfl

/-- The matrix product into the zero accumulator, at (r, q), is the sum of the 64 products of row r of the left operand
    with column q of the right one. -/
private theorem mm_apply {φ₁ φ₂ : FTy} (a : FVec Ideal S1024x64 φ₁) (b : FVec Ideal S64x1024 φ₂) (r q : Fin 1024) :
    matmul (F := Ideal) dot_S1024x64_S64x1024_S1024x1024_1_0_0_1_n_n none a b (constant S1024x1024 .f32 0x00000000#32) (ix2 r q)
      = ∑ k : Fin 64, a (ix2 r k) * b (ix2 k q) := by
  simp only [matmul]
  rw [Ideal.matmul_constant_zero_apply, ← Equiv.sum_comp (contrEquiv1 dot_S1024x64_S64x1024_S1024x1024_1_0_0_1_n_n 64 rfl rfl).symm]
  refine Finset.sum_congr rfl fun k _ => ?_
  have hk := contrEquiv1_symm_val dot_S1024x64_S64x1024_S1024x1024_1_0_0_1_n_n 64 rfl rfl k
  have el : dot_S1024x64_S64x1024_S1024x1024_1_0_0_1_n_n.lhsIdx (ix2 r q) ((contrEquiv1 dot_S1024x64_S64x1024_S1024x1024_1_0_0_1_n_n 64 rfl rfl).symm k) = ix2 r k := funext fun c => Fin.ext (by
    match c with
    | ⟨0, _⟩ => exact lhs_mm_0 _ _
    | ⟨1, _⟩ => exact (lhs_mm_1 _ _).trans hk)
  have er : dot_S1024x64_S64x1024_S1024x1024_1_0_0_1_n_n.rhsIdx (ix2 r q) ((contrEquiv1 dot_S1024x64_S64x1024_S1024x1024_1_0_0_1_n_n 64 rfl rfl).symm k) = ix2 k q := funext fun c => Fin.ext (by
    match c with
    | ⟨0, _⟩ => exact (rhs_mm_0 _ _).trans hk
    | ⟨1, _⟩ => exact rhs_mm_1 _ _)
  rw [el, er]

/-! ## The tile -/

/-- Row r's squared norm, as the body forms it and spreads it along row r of the tile. -/
private theorem rowNorm_apply (x : Vec Ideal S1x1024x64 .f32) (hφ : FKind.Formats .f32)
    (hacc : (0x00000000#32 : BitVec 32) = FKind.add.neutral .f32 hφ) (r q : Fin 1024) :
    broadcastTo S1024x1024
        (shapeCast S1024x1
          (multiReduction (F := Ideal) .add [1] S1024
            (mulf (shapeCast S1024x64 x shapeCasts_S1x1024x64_S1024x64) (shapeCast S1024x64 x shapeCasts_S1x1024x64_S1024x64))
            0x00000000#32 reduces_S1024x64_S1024 hφ hacc)
          shapeCasts_S1024_S1024x1)
        broadcasts_S1024x1_S1024x1024 (ix2 r q)
      = ∑ k : Fin 64, x (ix3 (0 : Fin 1) r k) * x (ix3 (0 : Fin 1) r k) := by
  refine (broadcastTo_a1_ab_apply _ broadcasts_S1024x1_S1024x1024 r q).trans ?_
  refine (shapeCast_a_a1_apply _ shapeCasts_S1024_S1024x1 r (0 : Fin 1)).trans ?_
  refine (rowSum_apply _ hφ hacc r).trans ?_
  refine Finset.sum_congr rfl fun k _ => ?_
  rw [mulf_apply, shapeCast_1ab_ab_apply]

/-- Point q's squared norm of the second block, as the body forms it, turns it into a row and spreads it down column q. -/
private theorem colNorm_apply (x : Vec Ideal S1x1024x64 .f32) (hφ : FKind.Formats .f32)
    (hacc : (0x00000000#32 : BitVec 32) = FKind.add.neutral .f32 hφ) (r q : Fin 1024) :
    broadcastTo S1024x1024
        (transpose S1x1024 [1, 0]
          (shapeCast S1024x1
            (multiReduction (F := Ideal) .add [1] S1024
              (mulf (shapeCast S1024x64 x shapeCasts_S1x1024x64_S1024x64) (shapeCast S1024x64 x shapeCasts_S1x1024x64_S1024x64))
              0x00000000#32 reduces_S1024x64_S1024 hφ hacc)
            shapeCasts_S1024_S1024x1)
          transposes_S1024x1_p1_0_S1x1024)
        broadcasts_S1x1024_S1024x1024 (ix2 r q)
      = ∑ k : Fin 64, x (ix3 (0 : Fin 1) q k) * x (ix3 (0 : Fin 1) q k) := by
  refine (broadcastTo_1b_ab_apply _ broadcasts_S1x1024_S1024x1024 r q).trans ?_
  refine (transpose_ix2_apply _ transposes_S1024x1_p1_0_S1x1024 (0 : Fin 1) q).trans ?_
  refine (shapeCast_a_a1_apply _ shapeCasts_S1024_S1024x1 q (0 : Fin 1)).trans ?_
  refine (rowSum_apply _ hφ hacc q).trans ?_
  refine Finset.sum_congr rfl fun k _ => ?_
  rw [mulf_apply, shapeCast_1ab_ab_apply]

/-- The product of the two blocks, the second transposed, at (r, q): the inner product of point r with point q. The
    change of format before the product is the identity on extended reals. -/
private theorem inner_apply (x0 x1 : Vec Ideal S1x1024x64 .f32) (r q : Fin 1024) :
    matmul (F := Ideal) dot_S1024x64_S64x1024_S1024x1024_1_0_0_1_n_n none
        (truncf .bf16 (shapeCast S1024x64 x0 shapeCasts_S1x1024x64_S1024x64) bitsLt_bf16_f32)
        (transpose S64x1024 [1, 0] (truncf .bf16 (shapeCast S1024x64 x1 shapeCasts_S1x1024x64_S1024x64) bitsLt_bf16_f32)
          transposes_S1024x64_p1_0_S64x1024)
        (constant S1024x1024 .f32 0x00000000#32) (ix2 r q)
      = ∑ k : Fin 64, x0 (ix3 (0 : Fin 1) r k) * x1 (ix3 (0 : Fin 1) q k) := by
  refine (mm_apply _ _ r q).trans ?_
  refine Finset.sum_congr rfl fun k _ => ?_
  rw [truncf_apply, shapeCast_1ab_ab_apply, transpose_ix2_apply, truncf_apply, shapeCast_1ab_ab_apply]

/-- Entry (r, q) of the tile is the distance of point r of the first block to point q of the second. -/
theorem tile_apply (x0 x1 : Vec Ideal S1x1024x64 .f32) (r q : Fin 1024) :
    k0_pay7 (F := Ideal) x0 x1 (ix2 r q)
      = dist (fun k : Fin 64 => x0 (ix3 (0 : Fin 1) r k)) (fun k : Fin 64 => x1 (ix3 (0 : Fin 1) q k)) := by
  unfold k0_pay7 dist
  exact congrArg Ideal.sqrt (congrArg₂ max
    (congrArg₂ (· - ·)
      (congrArg₂ (· + ·) (rowNorm_apply x0 _ _ r q) (colNorm_apply x1 _ _ r q))
      (congrArg (Ideal.ofBits .f32 0x40000000#32 * ·) (inner_apply x0 x1 r q)))
    rfl)

/-! ## The tile's row and column minima -/

/-- The least entry along the rows of the tile, at r, is the fold of min from the start word over row r. -/
private theorem rowMinRed_apply (v : FVec Ideal S1024x1024 .f32) (hφ : FKind.Formats .f32)
    (hacc : (0x7F800000#32 : BitVec 32) = FKind.minimumf.neutral .f32 hφ) (r : Fin 1024) :
    multiReduction (F := Ideal) .minimumf [1] S1024 v 0x7F800000#32 reduces_S1024x1024_S1024 hφ hacc (ix1 r)
      = (Finset.univ : Finset (Fin 1024)).fold min ⊤ (fun q : Fin 1024 => v (ix2 r q)) := by
  rw [multiReduction_minimumf_eq_fold]
  refine (reduces_S1024x1024_S1024.fold_filter_drop_single _ _ v (ix1 r)).trans ?_
  have hf : v ∘ reduces_S1024x1024_S1024.lift (ix1 r) = fun q : Fin 1024 => v (ix2 r q) :=
    funext fun q => congrArg v (funext fun a => Fin.ext (by
      match a with
      | ⟨0, _⟩ => rfl
      | ⟨1, _⟩ => rfl))
  rw [hf]
  show (Finset.univ : Finset (Fin 1024)).fold min (Ideal.ofBits .f32 0x7F800000#32) _ = _
  rw [ofBits_inf]

/-- The least entry along the columns of the tile, at q, is the fold of min from the start word over column q. -/
private theorem colMinRed_apply (v : FVec Ideal S1024x1024 .f32) (hφ : FKind.Formats .f32)
    (hacc : (0x7F800000#32 : BitVec 32) = FKind.minimumf.neutral .f32 hφ) (q : Fin 1024) :
    multiReduction (F := Ideal) .minimumf [0] S1024 v 0x7F800000#32 reduces_S1024x1024_S1024_2 hφ hacc (ix1 q)
      = (Finset.univ : Finset (Fin 1024)).fold min ⊤ (fun r : Fin 1024 => v (ix2 r q)) := by
  rw [multiReduction_minimumf_eq_fold]
  refine (reduces_S1024x1024_S1024_2.fold_filter_drop_single _ _ v (ix1 q)).trans ?_
  have hf : v ∘ reduces_S1024x1024_S1024_2.lift (ix1 q) = fun r : Fin 1024 => v (ix2 r q) :=
    funext fun r => congrArg v (funext fun a => Fin.ext (by
      match a with
      | ⟨0, _⟩ => rfl
      | ⟨1, _⟩ => rfl))
  rw [hf]
  show (Finset.univ : Finset (Fin 1024)).fold min (Ideal.ofBits .f32 0x7F800000#32) _ = _
  rw [ofBits_inf]

/-- Entry r of the tile's row minima is the greatest lower bound of row r of the tile. -/
theorem rowMin_glb (x0 x1 : Vec Ideal S1x1024x64 .f32) (r : Fin 1024) :
    IsGlb (fun _ : Fin 1024 => True) (fun q : Fin 1024 => k0_pay7 (F := Ideal) x0 x1 (ix2 r q))
      (k0_pay9 (F := Ideal) x0 x1 (ix2 (0 : Fin 1) r)) := by
  have h : k0_pay9 (F := Ideal) x0 x1 (ix2 (0 : Fin 1) r)
      = (Finset.univ : Finset (Fin 1024)).fold min ⊤ (fun q : Fin 1024 => k0_pay7 (F := Ideal) x0 x1 (ix2 r q)) := by
    unfold k0_pay9
    refine (transpose_ix2_apply _ transposes_S1024x1_p1_0_S1x1024 (0 : Fin 1) r).trans ?_
    refine (shapeCast_a_a1_apply _ shapeCasts_S1024_S1024x1 r (0 : Fin 1)).trans ?_
    exact rowMinRed_apply _ _ _ r
  rw [h]
  exact isGlb_fold_min _

/-- Entry q of the tile's column minima is the greatest lower bound of column q of the tile. -/
theorem colMin_glb (x0 x1 : Vec Ideal S1x1024x64 .f32) (q : Fin 1024) :
    IsGlb (fun _ : Fin 1024 => True) (fun r : Fin 1024 => k0_pay7 (F := Ideal) x0 x1 (ix2 r q))
      (k0_pay8 (F := Ideal) x0 x1 (ix2 (0 : Fin 1) q)) := by
  have h : k0_pay8 (F := Ideal) x0 x1 (ix2 (0 : Fin 1) q)
      = (Finset.univ : Finset (Fin 1024)).fold min ⊤ (fun r : Fin 1024 => k0_pay7 (F := Ideal) x0 x1 (ix2 r q)) := by
    unfold k0_pay8
    refine (shapeCast_a_1a_apply _ shapeCasts_S1024_S1x1024 (0 : Fin 1) q).trans ?_
    exact colMinRed_apply _ _ _ q
  rw [h]
  exact isGlb_fold_min _

/-! ## The accumulators and the outputs -/

/-- The row accumulator's update is the entrywise min of the old contents with the new row minima. -/
theorem rowUpd_apply (rm : FVec Ideal S1x1024 .f32) (old : Vec Ideal S1x1024 .f32) (r : Fin 1024) :
    k0_pay1 (F := Ideal) rm old (ix2 (0 : Fin 1) r) = min (old (ix2 (0 : Fin 1) r)) (rm (ix2 (0 : Fin 1) r)) := by
  unfold k0_pay1
  rw [shapeCast_self]
  rfl

/-- The column accumulator's update of one stretch likewise. -/
theorem colUpd_apply (cm : FVec Ideal S1x1024 .f32) (old : Vec Ideal S1x1024 .f32) (q : Fin 1024) :
    k0_pay2 (F := Ideal) cm old (ix2 (0 : Fin 1) q) = min (old (ix2 (0 : Fin 1) q)) (cm (ix2 (0 : Fin 1) q)) := by
  unfold k0_pay2
  rw [shapeCast_self]
  rfl

/-- The value the column accumulator is reset to is +∞ at every entry. -/
theorem colReset_apply (q : Fin 4096) : k0_pay5 (F := Ideal) (ix2 (0 : Fin 1) q) = (⊤ : EReal) := by
  unfold k0_pay5
  rw [shapeCast_self]
  exact ofBits_inf

/-- The value the row accumulator is reset to is +∞ at every entry. -/
theorem rowReset_apply (r : Fin 1024) : k0_pay6 (F := Ideal) (ix2 (0 : Fin 1) r) = (⊤ : EReal) := by
  unfold k0_pay6
  rw [shapeCast_self]
  exact ofBits_inf

/-- The first output block is the row accumulator with a unit axis in front. -/
theorem rowOut_apply (v : Vec Ideal S1x1024 .f32) (r : Fin 1024) :
    k0_pay3 (F := Ideal) v (ix3 (0 : Fin 1) (0 : Fin 1) r) = v (ix2 (0 : Fin 1) r) := by
  unfold k0_pay3
  refine (shapeCast_addUnit_apply ![1, 1024] v shapeCasts_S1x1024_S1x1x1024 (ix3 (0 : Fin 1) (0 : Fin 1) r)).trans ?_
  congr 1
  funext a
  match a with
  | ⟨0, _⟩ => rfl
  | ⟨1, _⟩ => rfl

/-- The second output block is the column accumulator with a unit axis in front. -/
theorem colOut_apply (v : Vec Ideal S1x4096 .f32) (q : Fin 4096) :
    k0_pay4 (F := Ideal) v (ix3 (0 : Fin 1) (0 : Fin 1) q) = v (ix2 (0 : Fin 1) q) := by
  unfold k0_pay4
  refine (shapeCast_addUnit_apply ![1, 4096] v shapeCasts_S1x4096_S1x1x4096 (ix3 (0 : Fin 1) (0 : Fin 1) q)).trans ?_
  congr 1
  funext a
  match a with
  | ⟨0, _⟩ => rfl
  | ⟨1, _⟩ => rfl

end Cert.Chamfer.Tile

end
-- ==== Proof.Blocks.lean ====
/-
  Where a grid point sits and what it reads. The grid has 8 by 4 by 4 points in row-major order: point t works on batch
  t / 16, on block (t / 4) mod 4 of the first cloud (1024 of its 4096 points) and on block t mod 4 of the second. Its
  two input blocks are those stretches of the two argument arrays, the column accumulator's stretch it updates starts
  at 1024 times its column block, and the two output windows' blocks are indexed by (batch, 0, row block) and by
  (batch, 0, 0).
-/
import proofs.«124431_j6433861009596_1_alg».proof.Proof.Gen.KernelIdeal.Frame
import proofs.«124431_j6433861009596_1_alg».proof.Proof.ChamferSpec
import Idealize.ShloMosaic.Lib.Pipeline.Value
import Idealize.ShloMosaic.Lib.ValueIdx

set_option maxRecDepth 16384

noncomputable section

namespace Cert.Chamfer.Blocks

open Idealize.ShloMosaic Idealize.ShloMosaic.TcCoe Idealize.ShloMosaic.ValueIdx Idealize.SL.Sem
open Cert.KernelIdeal Cert.KernelIdeal.Gen

variable {F : FTy → Type} [FloatOps F]
variable (m : (ℓ : Loc nD τ sig) → Buf (Elt F) ℓ)

/-- The grid has 128 points. -/
theorem N_eq : cfg0.N = 128 := N_0

/-- The batch the point t works on. -/
def batchOf (t : Fin cfg0.N) : Fin 8 := ⟨t.val / 16, by have := t.isLt; have := N_eq; omega⟩
/-- The block of the first cloud the point t works on. -/
def rowBlk (t : Fin cfg0.N) : Fin 4 := ⟨t.val / 4 % 4, Nat.mod_lt _ (by decide)⟩
/-- The block of the second cloud the point t works on. -/
def colBlk (t : Fin cfg0.N) : Fin 4 := ⟨t.val % 4, Nat.mod_lt _ (by decide)⟩

/-- The row-major coordinates of each of the 128 points, checked point by point. -/
private theorem coords_all : ∀ t : Fin grid0.N,
    ((grid0.coords t) 0).val = t.val / 16 ∧ ((grid0.coords t) 1).val = t.val / 4 % 4 ∧ ((grid0.coords t) 2).val = t.val % 4 := by
  decide +kernel

/-- The point's grid coordinates are its batch, its row block and its column block. -/
theorem coords_eq (t : Fin cfg0.N) :
    ((grid0.coords t) 0).val = t.val / 16 ∧ ((grid0.coords t) 1).val = t.val / 4 % 4 ∧ ((grid0.coords t) 2).val = t.val % 4 :=
  coords_all t

/-- The two store offsets of each of the 128 points, checked point by point: the 32-bit product of the column block
    (below 4) by 1024 does not wrap. -/
private theorem off_all : ∀ t : Fin grid0.N,
    k0_off1 (grid0.coords t) 0 = 0 ∧ k0_off1 (grid0.coords t) 1 = 1024 * (t.val % 4) := by
  decide +kernel

/-- The stretch of the column accumulator the point updates starts at 1024 times its column block. -/
theorem off_eq (t : Fin cfg0.N) : k0_off1 (grid0.coords t) = ![0, 1024 * (t.val % 4)] := by
  have h := off_all t
  funext a
  match a with
  | ⟨0, _⟩ => exact h.1
  | ⟨1, _⟩ => exact h.2

/-- The four windows' block indices at each of the 128 points, checked point by point. -/
private theorem index0_all : ∀ t : Fin grid0.N,
    win0_0.index t 0 = t.val / 16 ∧ win0_0.index t 1 = t.val / 4 % 4 ∧ win0_0.index t 2 = 0 := by
  decide +kernel
private theorem index1_all : ∀ t : Fin grid0.N,
    win0_1.index t 0 = t.val / 16 ∧ win0_1.index t 1 = t.val % 4 ∧ win0_1.index t 2 = 0 := by
  decide +kernel
private theorem index2_all : ∀ t : Fin grid0.N,
    win0_2.index t 0 = t.val / 16 ∧ win0_2.index t 1 = 0 ∧ win0_2.index t 2 = t.val / 4 % 4 := by
  decide +kernel
private theorem index3_all : ∀ t : Fin grid0.N,
    win0_3.index t 0 = t.val / 16 ∧ win0_3.index t 1 = 0 ∧ win0_3.index t 2 = 0 := by
  decide +kernel

/-- The block indices of the four windows at the point t. -/
theorem index0 (t : Fin cfg0.N) : win0_0.index t 0 = t.val / 16 ∧ win0_0.index t 1 = t.val / 4 % 4 ∧ win0_0.index t 2 = 0 :=
  index0_all t
theorem index1 (t : Fin cfg0.N) : win0_1.index t 0 = t.val / 16 ∧ win0_1.index t 1 = t.val % 4 ∧ win0_1.index t 2 = 0 :=
  index1_all t
theorem index2 (t : Fin cfg0.N) : win0_2.index t 0 = t.val / 16 ∧ win0_2.index t 1 = 0 ∧ win0_2.index t 2 = t.val / 4 % 4 :=
  index2_all t
theorem index3 (t : Fin cfg0.N) : win0_3.index t 0 = t.val / 16 ∧ win0_3.index t 1 = 0 ∧ win0_3.index t 2 = 0 :=
  index3_all t

/-- The two argument arrays and the point's two input blocks, at their literal types. -/
abbrev xarr (c : Dev nD) : Vec F S8x4096x64 .f32 := m ((c : Thread nD τ).loc main_arg0)
abbrev yarr (c : Dev nD) : Vec F S8x4096x64 .f32 := m ((c : Thread nD τ).loc main_arg1)
abbrev xblk (c : Dev nD) (t : Fin cfg0.N) : Vec F S1x1024x64 .f32 := iblk m c 0 t
abbrev yblk (c : Dev nD) (t : Fin cfg0.N) : Vec F S1x1024x64 .f32 := iblk m c 1 t

/-- Point r of the first input block is point r of the point's row block of the first cloud, in its batch. -/
theorem xblk_apply (c : Dev nD) (t : Fin cfg0.N) (r : Fin 1024) (k : Fin 64) :
    xblk m c t (ix3 (0 : Fin 1) r k) = xarr m c (ix3 (batchOf t) (inBlk (rowBlk t) r) k) := by
  have hi := index0 t
  show iblk m c 0 t _ = _
  unfold iblk
  rw [View.read_apply]
  show V m c main_arg0 _ = m (c.tc.loc main_arg0) _
  unfold V
  congr 1
  funext a
  apply Fin.ext
  -- along each axis the array coordinate is the block index times the block extent plus the coordinate in the block
  match a with
  | ⟨0, _⟩ =>
    show win0_0.index t 0 * 1 + 1 * (0 : Fin 1).val = (batchOf t).val
    rw [hi.1]; unfold batchOf; simp only [Fin.val_zero]; omega
  | ⟨1, _⟩ =>
    show win0_0.index t 1 * 1024 + 1 * r.val = (inBlk (rowBlk t) r).val
    rw [hi.2.1, inBlk_val]; unfold rowBlk; simp only; omega
  | ⟨2, _⟩ =>
    show win0_0.index t 2 * 64 + 1 * k.val = k.val
    rw [hi.2.2]; omega

/-- Point q of the second input block is point q of the point's column block of the second cloud, in its batch. -/
theorem yblk_apply (c : Dev nD) (t : Fin cfg0.N) (q : Fin 1024) (k : Fin 64) :
    yblk m c t (ix3 (0 : Fin 1) q k) = yarr m c (ix3 (batchOf t) (inBlk (colBlk t) q) k) := by
  have hi := index1 t
  show iblk m c 1 t _ = _
  unfold iblk
  rw [View.read_apply]
  show V m c main_arg1 _ = m (c.tc.loc main_arg1) _
  unfold V
  congr 1
  funext a
  apply Fin.ext
  -- the same three coordinate equations, with the column block on the middle axis
  match a with
  | ⟨0, _⟩ =>
    show win0_1.index t 0 * 1 + 1 * (0 : Fin 1).val = (batchOf t).val
    rw [hi.1]; unfold batchOf; simp only [Fin.val_zero]; omega
  | ⟨1, _⟩ =>
    show win0_1.index t 1 * 1024 + 1 * q.val = (inBlk (colBlk t) q).val
    rw [hi.2.1, inBlk_val]; unfold colBlk; simp only; omega
  | ⟨2, _⟩ =>
    show win0_1.index t 2 * 64 + 1 * k.val = k.val
    rw [hi.2.2]; omega

end Cert.Chamfer.Blocks

end
-- ==== Proof.Invariant.lean ====
/-
  The induction over the grid. After the point t, which works on batch b, on block nb of the first cloud and on block
  mb of the second, the row accumulator holds, for each of the 1024 points n of block nb, the least distance from n
  to the points of the second cloud's blocks 0 .. mb (its first 1024 (mb + 1) points); the column accumulator holds,
  for each of the 4096 points q of the second cloud, the least distance to q from the first cloud's blocks 0 .. nb if
  q's own block is at most mb, and from its blocks 0 .. nb − 1 otherwise; each output block is its accumulator. A reset
  point starts an accumulator from +∞, the minimum over no point; every point folds one more block of 1024 candidates
  into each running minimum, which is the minimum over the union. The statement is by induction on the point, never
  by enumerating the 128 points.
-/
import proofs.«124431_j6433861009596_1_alg».proof.Proof.Pieces
import proofs.«124431_j6433861009596_1_alg».proof.Proof.Tile
import proofs.«124431_j6433861009596_1_alg».proof.Proof.Blocks

set_option maxRecDepth 16384

noncomputable section

namespace Cert.Chamfer.Inv

open Idealize.ShloMosaic Idealize.ShloMosaic.TcCoe Idealize.ShloMosaic.ValueIdx Idealize.SL.Sem
open Cert.KernelIdeal Cert.KernelIdeal.Gen
open Cert.Chamfer.Blocks Cert.Chamfer.Pieces

variable (m : (ℓ : Loc nD τ sig) → Buf (Elt Ideal) ℓ)

/-- The distance, in batch b, of point n of the first argument array to point q of the second. -/
def D (c : Dev nD) (b : Fin 8) (n q : Fin 4096) : EReal :=
  dist (fun k : Fin 64 => xarr m c (ix3 b n k)) (fun k : Fin 64 => yarr m c (ix3 b q k))

/-- Entry (r, q) of the tile the point t forms is the distance of point r of its row block to point q of its column
    block, in its batch. -/
theorem tile_at (c : Dev nD) (t : Fin cfg0.N) (r q : Fin 1024) :
    k0_pay7 (F := Ideal) (xblk m c t) (yblk m c t) (ix2 r q)
      = D m c (batchOf t) (inBlk (rowBlk t) r) (inBlk (colBlk t) q) := by
  rw [Tile.tile_apply]
  unfold D
  simp only [xblk_apply, yblk_apply]

/-- The column accumulator's update read at entry q, when the updated stretch starts at 1024 times kb: inside the
    stretch the min of the old entry with the new column minimum at q's place in the stretch, outside the old entry. -/
theorem colUpd_at (off : Fin 2 → Nat) (inb : ∀ a, off a + S1x1024.size a ≤ S1x4096.size a) (cm : FVec Ideal S1x1024 .f32)
    (old : Vec Ideal S1x4096 .f32) (kb : ℕ) (hoff : off = ![0, 1024 * kb]) (q : Fin 4096) :
    colUpd off inb cm old (ix2 (0 : Fin 1) q)
      = if q.val / 1024 = kb then min (old (ix2 (0 : Fin 1) q)) (cm (ix2 (0 : Fin 1) ⟨q.val % 1024, Nat.mod_lt _ (by decide)⟩))
        else old (ix2 (0 : Fin 1) q) := by
  subst hoff
  unfold colUpd
  by_cases hq : q.val / 1024 = kb
  · have hin : ∀ a : Fin 2, (![0, 1024 * kb] : Fin 2 → Nat) a ≤ ((ix2 (0 : Fin 1) q : S1x4096.Idx) a).val
        ∧ ((ix2 (0 : Fin 1) q : S1x4096.Idx) a).val < (![0, 1024 * kb] : Fin 2 → Nat) a + S1x1024.size a := by
      intro a
      match a with
      | ⟨0, _⟩ => exact ⟨Nat.le_refl _, by show (0 : ℕ) < 0 + 1; omega⟩
      | ⟨1, _⟩ =>
        show 1024 * kb ≤ q.val ∧ q.val < 1024 * kb + 1024
        omega
    rw [dif_pos hin, if_pos hq]
    have hloc : Rect.unitLocal (s := S1x4096) (off := (![0, 1024 * kb] : Fin 2 → Nat)) (size := S1x1024.size) (ix2 (0 : Fin 1) q) hin
        = (ix2 (0 : Fin 1) (⟨q.val % 1024, Nat.mod_lt _ (by decide)⟩ : Fin 1024) : S1x1024.Idx) := by
      funext a
      apply Fin.ext
      match a with
      | ⟨0, _⟩ => rfl
      | ⟨1, _⟩ =>
        show q.val - 1024 * kb = q.val % 1024
        omega
    rw [hloc, Tile.colUpd_apply]
    congr 1
    show old _ = old _
    congr 1
    funext a
    apply Fin.ext
    match a with
    | ⟨0, _⟩ => rfl
    | ⟨1, _⟩ =>
      show 1024 * kb + 1 * (q.val % 1024) = q.val
      omega
  · have hout : ¬∀ a : Fin 2, (![0, 1024 * kb] : Fin 2 → Nat) a ≤ ((ix2 (0 : Fin 1) q : S1x4096.Idx) a).val
        ∧ ((ix2 (0 : Fin 1) q : S1x4096.Idx) a).val < (![0, 1024 * kb] : Fin 2 → Nat) a + S1x1024.size a := by
      intro h
      have h1 := h (1 : Fin 2)
      have h1' : 1024 * kb ≤ q.val ∧ q.val < 1024 * kb + 1024 := h1
      omega
    rw [dif_neg hout, if_neg hq]

/-- What the row accumulator holds once K of the second cloud's blocks are folded in: for each point of the point's
    row block, the least distance to the second cloud's first 1024 K points. -/
def RowUpTo (c : Dev nD) (t : Fin cfg0.N) (K : ℕ) (s : Vec Ideal S1x1024 .f32) : Prop :=
  ∀ r : Fin 1024, IsGlb (fun q : Fin 4096 => q.val < 1024 * K)
    (fun q : Fin 4096 => D m c (batchOf t) (inBlk (rowBlk t) r) q) (s (ix2 (0 : Fin 1) r))

/-- What the column accumulator holds when, for the second cloud's blocks below the block number M, one more block of
    the first cloud is folded in than for the others: for each point q of the second cloud, the least distance from
    the first cloud's first 1024 (nb + 1) points if q's block is below M, from its first 1024 nb points otherwise. -/
def ColUpTo (c : Dev nD) (t : Fin cfg0.N) (M : ℕ) (s : Vec Ideal S1x4096 .f32) : Prop :=
  ∀ q : Fin 4096, IsGlb (fun n : Fin 4096 => n.val < 1024 * (t.val / 4 % 4 + (if q.val / 1024 < M then 1 else 0)))
    (fun n : Fin 4096 => D m c (batchOf t) n q) (s (ix2 (0 : Fin 1) q))

/-- One point folds its column block into the row accumulator. -/
theorem row_step (c : Dev nD) (t : Fin cfg0.N) (old : Vec Ideal S1x1024 .f32) (h : RowUpTo m c t (t.val % 4) old) :
    RowUpTo m c t (t.val % 4 + 1) (k0_pay1 (F := Ideal) (k0_pay9 (F := Ideal) (xblk m c t) (yblk m c t)) old) := by
  intro r
  rw [Tile.rowUpd_apply]
  refine IsGlb.min_range (fun q : Fin 1024 => inBlk (colBlk t) q) (h r) (Tile.rowMin_glb (xblk m c t) (yblk m c t) r)
    (fun q => tile_at m c t r q) (fun j => ?_)
  constructor
  · intro hj
    by_cases hlt : j.val < 1024 * (t.val % 4)
    · exact Or.inl hlt
    · refine Or.inr ⟨⟨j.val - 1024 * (t.val % 4), by omega⟩, Fin.ext ?_⟩
      show j.val = 1024 * (t.val % 4) + (j.val - 1024 * (t.val % 4))
      omega
  · rintro (hlt | ⟨q, rfl⟩)
    · omega
    · show 1024 * (t.val % 4) + q.val < 1024 * (t.val % 4 + 1)
      have := q.isLt
      omega

/-- One point folds its row block into the stretch of the column accumulator that belongs to its column block. -/
theorem col_step (c : Dev nD) (t : Fin cfg0.N) (old : Vec Ideal S1x4096 .f32) (h : ColUpTo m c t (t.val % 4) old) :
    ColUpTo m c t (t.val % 4 + 1)
      (colUpd (k0_off1 (grid0.coords t)) (k0_off1_inb (grid0.coords t)) (k0_pay8 (F := Ideal) (xblk m c t) (yblk m c t)) old) := by
  intro q
  rw [colUpd_at _ _ _ _ (t.val % 4) (off_eq t) q]
  by_cases hq : q.val / 1024 = t.val % 4
  · rw [if_pos hq]
    have hqe : inBlk (colBlk t) (⟨q.val % 1024, Nat.mod_lt _ (by decide)⟩ : Fin 1024) = q := Fin.ext (by
      show 1024 * (t.val % 4) + q.val % 1024 = q.val
      omega)
    refine IsGlb.min_range (fun r : Fin 1024 => inBlk (rowBlk t) r) (h q)
      (Tile.colMin_glb (xblk m c t) (yblk m c t) ⟨q.val % 1024, Nat.mod_lt _ (by decide)⟩)
      (fun r => (tile_at m c t r _).trans (by rw [hqe])) (fun j => ?_)
    rw [if_neg (by omega : ¬q.val / 1024 < t.val % 4), if_pos (by omega : q.val / 1024 < t.val % 4 + 1)]
    constructor
    · intro hj
      by_cases hlt : j.val < 1024 * (t.val / 4 % 4 + 0)
      · exact Or.inl hlt
      · refine Or.inr ⟨⟨j.val - 1024 * (t.val / 4 % 4), by omega⟩, Fin.ext ?_⟩
        show j.val = 1024 * (t.val / 4 % 4) + (j.val - 1024 * (t.val / 4 % 4))
        omega
    · rintro (hlt | ⟨r, rfl⟩)
      · omega
      · show 1024 * (t.val / 4 % 4) + r.val < 1024 * (t.val / 4 % 4 + 1)
        have := r.isLt
        omega
  · rw [if_neg hq]
    refine (h q).of_iff (fun n => ?_)
    by_cases hlt : q.val / 1024 < t.val % 4
    · rw [if_pos hlt, if_pos (by omega : q.val / 1024 < t.val % 4 + 1)]
    · rw [if_neg hlt, if_neg (by omega : ¬q.val / 1024 < t.val % 4 + 1)]

/-- The point before t. -/
abbrev before (t : Fin cfg0.N) : Fin cfg0.N := ⟨t.val - 1, Nat.lt_of_le_of_lt (Nat.sub_le _ _) t.isLt⟩

/-- Within one row of the grid (the column block is not the first) the point before works on the same batch and row
    block, and has folded in exactly the column blocks below this point's. -/
theorem RowUpTo.of_before (c : Dev nD) (t : Fin cfg0.N) (hp : ¬t.val % 4 = 0) (s : Vec Ideal S1x1024 .f32)
    (h : RowUpTo m c (before t) ((before t).val % 4 + 1) s) : RowUpTo m c t (t.val % 4) s := by
  have hb : batchOf (before t) = batchOf t := Fin.ext (by show (t.val - 1) / 16 = t.val / 16; omega)
  have hr : rowBlk (before t) = rowBlk t := Fin.ext (by show (t.val - 1) / 4 % 4 = t.val / 4 % 4; omega)
  have hk : (before t).val % 4 + 1 = t.val % 4 := by show (t.val - 1) % 4 + 1 = t.val % 4; omega
  intro r
  have := h r
  rw [hb, hr, hk] at this
  exact this

theorem ColUpTo.of_before (c : Dev nD) (t : Fin cfg0.N) (hp : ¬t.val % 4 = 0) (s : Vec Ideal S1x4096 .f32)
    (h : ColUpTo m c (before t) ((before t).val % 4 + 1) s) : ColUpTo m c t (t.val % 4) s := by
  have hb : batchOf (before t) = batchOf t := Fin.ext (by show (t.val - 1) / 16 = t.val / 16; omega)
  have hn : (before t).val / 4 % 4 = t.val / 4 % 4 := by show (t.val - 1) / 4 % 4 = t.val / 4 % 4; omega
  have hk : (before t).val % 4 + 1 = t.val % 4 := by show (t.val - 1) % 4 + 1 = t.val % 4; omega
  intro q
  have := h q
  rw [hb, hn, hk] at this
  exact this

/-- At the first column block of a later row block of the same batch, the point before has finished the row block
    before: every stretch of the column accumulator has the first cloud's blocks below this point's folded in. -/
theorem ColUpTo.of_before_row (c : Dev nD) (t : Fin cfg0.N) (h4 : t.val % 4 = 0) (h16 : ¬t.val % 16 = 0)
    (s : Vec Ideal S1x4096 .f32) (h : ColUpTo m c (before t) ((before t).val % 4 + 1) s) : ColUpTo m c t (t.val % 4) s := by
  have hb : batchOf (before t) = batchOf t := Fin.ext (by show (t.val - 1) / 16 = t.val / 16; omega)
  intro q
  have := h q
  rw [hb] at this
  refine this.of_iff (fun n => ?_)
  have hq := q.isLt
  rw [if_neg (by omega : ¬q.val / 1024 < t.val % 4),
    if_pos (by show q.val / 1024 < (t.val - 1) % 4 + 1; omega : q.val / 1024 < (before t).val % 4 + 1)]
  show n.val < 1024 * (t.val / 4 % 4 + 0) ↔ n.val < 1024 * ((t.val - 1) / 4 % 4 + 1)
  have : (t.val - 1) / 4 % 4 + 1 = t.val / 4 % 4 := by omega
  rw [this]; simp

/-- A row accumulator just reset to +∞ has no column block folded in. -/
theorem rowReset (c : Dev nD) (t : Fin cfg0.N) (h4 : t.val % 4 = 0) : RowUpTo m c t (t.val % 4) (k0_pay6 (F := Ideal)) := by
  intro r
  rw [Tile.rowReset_apply, h4]
  exact isGlb_top _ (fun j hj => by omega)

/-- A column accumulator just reset to +∞, at the first point of a batch, has no row block folded in. -/
theorem colReset (c : Dev nD) (t : Fin cfg0.N) (h16 : t.val % 16 = 0) : ColUpTo m c t (t.val % 4) (k0_pay5 (F := Ideal)) := by
  intro q
  rw [Tile.colReset_apply]
  refine isGlb_top _ (fun j hj => ?_)
  rw [if_neg (by omega : ¬q.val / 1024 < t.val % 4)] at hj
  have : t.val / 4 % 4 = 0 := by omega
  rw [this] at hj
  omega

/-- The state after the point t: the two accumulators as described above, and each output block its accumulator. -/
structure Holds (c : Dev nD) (t : Fin cfg0.N)
    (o : Vec Ideal S1x1x1024 .f32 × Vec Ideal S1x1x4096 .f32 × Vec Ideal S1x1024 .f32 × Vec Ideal S1x4096 .f32) : Prop where
  row : RowUpTo m c t (t.val % 4 + 1) o.2.2.1
  col : ColUpTo m c t (t.val % 4 + 1) o.2.2.2
  rowOut : ∀ r : Fin 1024, o.1 (ix3 (0 : Fin 1) (0 : Fin 1) r) = o.2.2.1 (ix2 (0 : Fin 1) r)
  colOut : ∀ q : Fin 4096, o.2.1 (ix3 (0 : Fin 1) (0 : Fin 1) q) = o.2.2.2 (ix2 (0 : Fin 1) q)

/-- One point, whichever its control case: from accumulators with the blocks below this point's folded in, the four
    values the body leaves (given as the body's payloads of the point's input blocks and of those accumulators) are
    the state after the point. -/
theorem holds_of (c : Dev nD) (t : Fin cfg0.N) (rowOld : Vec Ideal S1x1024 .f32) (colOld : Vec Ideal S1x4096 .f32)
    (hr : RowUpTo m c t (t.val % 4) rowOld) (hc : ColUpTo m c t (t.val % 4) colOld)
    (o1 : Vec Ideal S1x1x1024 .f32) (o2 : Vec Ideal S1x1x4096 .f32) (o3 : Vec Ideal S1x1024 .f32) (o4 : Vec Ideal S1x4096 .f32)
    (e1 : o1 = k0_pay3 (F := Ideal) (k0_pay1 (F := Ideal) (k0_pay9 (F := Ideal) (xblk m c t) (yblk m c t)) rowOld))
    (e2 : o2 = k0_pay4 (F := Ideal) (colUpd (k0_off1 (grid0.coords t)) (k0_off1_inb (grid0.coords t))
      (k0_pay8 (F := Ideal) (xblk m c t) (yblk m c t)) colOld))
    (e3 : o3 = k0_pay1 (F := Ideal) (k0_pay9 (F := Ideal) (xblk m c t) (yblk m c t)) rowOld)
    (e4 : o4 = colUpd (k0_off1 (grid0.coords t)) (k0_off1_inb (grid0.coords t))
      (k0_pay8 (F := Ideal) (xblk m c t) (yblk m c t)) colOld) :
    Holds m c t (o1, o2, o3, o4) := by
  subst e1 e2 e3 e4
  exact ⟨row_step m c t rowOld hr, col_step m c t colOld hc,
    fun r => Tile.rowOut_apply (k0_pay1 (F := Ideal) (k0_pay9 (F := Ideal) (xblk m c t) (yblk m c t)) rowOld) r,
    fun q => Tile.colOut_apply (colUpd (k0_off1 (grid0.coords t)) (k0_off1_inb (grid0.coords t))
      (k0_pay8 (F := Ideal) (xblk m c t) (yblk m c t)) colOld) q⟩

/-- One step of the induction: the state after the point before (when there is one) gives the state after t, by the
    control case the point is in. The first point of a batch resets both accumulators; the first point of a later row
    block resets the row accumulator and keeps the column accumulator; every other point keeps both. -/
theorem holds_step (c : Dev nD) (t : Fin cfg0.N)
    (ih : t.val ≠ 0 → Holds m c (before t) (outsAt0 m c (t.val - 1) (before t).isLt)) :
    Holds m c t (outsAt0 m c t.val t.isLt) := by
  by_cases h0 : t.val % 16 = 0
  · have h1 : t.val % 4 = 0 := by omega
    rw [outsAt0_A m c t h0 h1]
    refine holds_of m c t (k0_pay6 (F := Ideal)) (k0_pay5 (F := Ideal)) (rowReset m c t h1) (colReset m c t h0) _ _ _ _ ?_ ?_ ?_ ?_
    · exact Pieces.rowOut_A c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) ((hcond0_1 t).mpr h1) (xblk m c t) (yblk m c t)
    · exact Pieces.colOut_A c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) ((hcond0_1 t).mpr h1) (xblk m c t) (yblk m c t)
    · exact Pieces.rowAcc_A c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) ((hcond0_1 t).mpr h1) (xblk m c t) (yblk m c t)
    · exact Pieces.colAcc_A c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) ((hcond0_1 t).mpr h1) (xblk m c t) (yblk m c t)
  · have hne : t.val ≠ 0 := fun hz => h0 (by rw [hz])
    by_cases h1 : t.val % 4 = 0
    · rw [outsAt0_C m c t h0 h1]
      refine holds_of m c t (k0_pay6 (F := Ideal)) (outsAt0 m c (t.val - 1) (before t).isLt).2.2.2 (rowReset m c t h1)
        (ColUpTo.of_before_row m c t h1 h0 _ (ih hne).col) _ _ _ _ ?_ ?_ ?_ ?_
      · exact Pieces.rowOut_C c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (xblk m c t) (yblk m c t) (outsAt0 m c (t.val - 1) (before t).isLt).2.2.2
      · exact Pieces.colOut_C c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (xblk m c t) (yblk m c t) (outsAt0 m c (t.val - 1) (before t).isLt).2.2.2
      · exact Pieces.rowAcc_C c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (xblk m c t) (yblk m c t) (outsAt0 m c (t.val - 1) (before t).isLt).2.2.2
      · exact Pieces.colAcc_C c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (xblk m c t) (yblk m c t) (outsAt0 m c (t.val - 1) (before t).isLt).2.2.2
    · rw [outsAt0_B m c t h0 h1]
      refine holds_of m c t (outsAt0 m c (t.val - 1) (before t).isLt).2.2.1 (outsAt0 m c (t.val - 1) (before t).isLt).2.2.2
        (RowUpTo.of_before m c t h1 _ (ih hne).row) (ColUpTo.of_before m c t h1 _ (ih hne).col) _ _ _ _ ?_ ?_ ?_ ?_
      · exact Pieces.rowOut_B c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (xblk m c t) (yblk m c t) (outsAt0 m c (t.val - 1) (before t).isLt).2.2.1 (outsAt0 m c (t.val - 1) (before t).isLt).2.2.2
      · exact Pieces.colOut_B c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (xblk m c t) (yblk m c t) (outsAt0 m c (t.val - 1) (before t).isLt).2.2.1 (outsAt0 m c (t.val - 1) (before t).isLt).2.2.2
      · exact Pieces.rowAcc_B c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (xblk m c t) (yblk m c t) (outsAt0 m c (t.val - 1) (before t).isLt).2.2.1 (outsAt0 m c (t.val - 1) (before t).isLt).2.2.2
      · exact Pieces.colAcc_B c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (xblk m c t) (yblk m c t) (outsAt0 m c (t.val - 1) (before t).isLt).2.2.1 (outsAt0 m c (t.val - 1) (before t).isLt).2.2.2

/-- The state after every point, by induction on the point's number. -/
theorem holds (c : Dev nD) : ∀ (n : ℕ) (h : n < cfg0.N), Holds m c ⟨n, h⟩ (outsAt0 m c n h)
  | 0, h => holds_step m c ⟨0, h⟩ (fun hne => absurd rfl hne)
  | n + 1, h => holds_step m c ⟨n + 1, h⟩ (fun _ => holds c n (Nat.lt_of_succ_lt h))

end Cert.Chamfer.Inv

end
-- ==== Proof.Final.lean ====
/-
  The two result arrays of the kernel region. Each output window writes a block back when its block index is about
  to change: the first output's block (batch, 0, row block) after the last column block of that row block, the second
  output's block (batch, 0, 0) after the last point of the batch. At such a point the accumulator behind the block has
  every block of the other cloud folded in, so each entry written back is the least distance over all 4096 candidates;
  the blocks written back cover both arrays, so the arrays end at those minima everywhere. The minimum over all
  candidates is spelt as the fold of min from +∞ over the whole index type, which is what a greatest lower bound over
  everything is equal to.
-/
import proofs.«124431_j6433861009596_1_alg».proof.Proof.Invariant

set_option maxRecDepth 16384

noncomputable section

namespace Cert.Chamfer.Final

open Idealize.ShloMosaic Idealize.ShloMosaic.TcCoe Idealize.ShloMosaic.ValueIdx Idealize.SL.Sem
open Idealize.ShloMosaic.Pipeline (Dat)
open Cert.KernelIdeal Cert.KernelIdeal.Gen
open Cert.Chamfer.Blocks Cert.Chamfer.Inv

variable (m : (ℓ : Loc nD τ sig) → Buf (Elt Ideal) ℓ)

/-- For every batch and every point of the first cloud, the least distance to the second cloud. -/
def rowMinArr (c : Dev nD) : Vec Ideal S8x1x4096 .f32 := fun i =>
  (Finset.univ : Finset (Fin 4096)).fold min ⊤
    (fun q : Fin 4096 => D m c ⟨(i 0).val, (i 0).isLt⟩ ⟨(i 2).val, (i 2).isLt⟩ q)

/-- For every batch and every point of the second cloud, the least distance from the first cloud. -/
def colMinArr (c : Dev nD) : Vec Ideal S8x1x4096 .f32 := fun i =>
  (Finset.univ : Finset (Fin 4096)).fold min ⊤
    (fun n : Fin 4096 => D m c ⟨(i 0).val, (i 0).isLt⟩ n ⟨(i 2).val, (i 2).isLt⟩)

/-- The row minimum at batch b and point n is the greatest lower bound of the distances from n to every point of the
    second cloud: a fold of min from +∞ over a whole finite type is the bound over all of it. -/
theorem rowMinArr_glb (c : Dev nD) (b : Fin 8) (n : Fin 4096) :
    IsGlb (fun _ : Fin 4096 => True) (fun q : Fin 4096 => D m c b n q) (rowMinArr m c (ix3 b (0 : Fin 1) n)) :=
  isGlb_fold_min (fun q : Fin 4096 => D m c b n q)

/-- What a point whose column block is the last one writes back to the first output is its block of the row minima:
    entry r of the block sits at (batch, 0, 1024 · row block + r) of the array; the row accumulator behind it has all
    four column blocks folded in, so it bounds the distances to the first 1024 · 4 = 4096 points, that is to all of
    them; and two greatest lower bounds of one family are equal. -/
theorem flushed_row (c : Dev nD) (t : Fin cfg0.N) (hf : (cfg0.win 2).flush t = true) :
    (dats m 0 c).flushed 2 t = ((cfg0.win 2).blk t).view.read (Elt Ideal) (rowMinArr m c) := by
  have h3 : t.val % 4 = 3 := (flush0_2 t).mp hf
  have hi := index2 t
  show (cfg0.win 2).cut (grid0.coords t) ((dats m 0 c).after 2 t) = _
  rw [after0_2]
  refine funext fun (y : S1x1x1024.Idx) => ?_
  obtain ⟨u, v, r, rfl⟩ : ∃ (u : Fin 1) (v : Fin 1) (r : Fin 1024), y = ix3 u v r := ⟨y 0, y 1, y 2, eq_ix3 y⟩
  obtain rfl : u = 0 := Subsingleton.elim _ _
  obtain rfl : v = 0 := Subsingleton.elim _ _
  rw [View.read_apply]
  show (outsAt0 m c t.val t.isLt).1 (ix3 (0 : Fin 1) (0 : Fin 1) r)
    = rowMinArr m c (((cfg0.win 2).blk t).view.emb (ix3 (0 : Fin 1) (0 : Fin 1) r))
  -- where the block's entry sits in the array: block index times block extent plus the place in the block, per axis
  have hemb : ((cfg0.win 2).blk t).view.emb (ix3 (0 : Fin 1) (0 : Fin 1) r)
      = (ix3 (batchOf t) (0 : Fin 1) (inBlk (rowBlk t) r) : S8x1x4096.Idx) := by
    funext a
    apply Fin.ext
    match a with
    | ⟨0, _⟩ =>
      show win0_2.index t 0 * 1 + 1 * (0 : Fin 1).val = (batchOf t).val
      rw [hi.1]; unfold batchOf; simp only [Fin.val_zero]; omega
    | ⟨1, _⟩ =>
      show win0_2.index t 1 * 1 + 1 * (0 : Fin 1).val = (0 : Fin 1).val
      rw [hi.2.1]; simp only [Fin.val_zero]
    | ⟨2, _⟩ =>
      show win0_2.index t 2 * 1024 + 1 * r.val = (inBlk (rowBlk t) r).val
      rw [hi.2.2, inBlk_val]; unfold rowBlk; simp only; omega
  rw [hemb]
  have hH := holds m c t.val t.isLt
  rw [hH.rowOut r]
  have hall : IsGlb (fun _ : Fin 4096 => True) (fun q : Fin 4096 => D m c (batchOf t) (inBlk (rowBlk t) r) q)
      ((outsAt0 m c t.val t.isLt).2.2.1 (ix2 (0 : Fin 1) r)) :=
    (hH.row r).of_iff (fun q => ⟨fun _ => by have := q.isLt; show q.val < 1024 * (t.val % 4 + 1); omega, fun _ => trivial⟩)
  exact hall.unique (rowMinArr_glb m c (batchOf t) (inBlk (rowBlk t) r))

/-- Every entry (b, 0, n) of the first output lies in a block that is written back: the block of the point
    16 b + 4 (n / 1024) + 3, the last column block of batch b and row block n / 1024. -/
theorem cover_row (c : Dev nD) (i : S8x1x4096.Idx) :
    ∃ t : Fin cfg0.N, (cfg0.win 2).flush t = true ∧ i ∈ ((cfg0.win 2).blk t).view.set := by
  have hN := N_eq
  have h0 : (i 0).val < 8 := (i 0).isLt
  have h1 : (i 1).val < 1 := (i 1).isLt
  have h2 : (i 2).val < 4096 := (i 2).isLt
  have hlt : 16 * (i 0).val + 4 * ((i 2).val / 1024) + 3 < cfg0.N := by omega
  have hi := index2 ⟨16 * (i 0).val + 4 * ((i 2).val / 1024) + 3, hlt⟩
  refine ⟨⟨16 * (i 0).val + 4 * ((i 2).val / 1024) + 3, hlt⟩, (flush0_2 _).mpr ?_, ?_⟩
  · show (16 * (i 0).val + 4 * ((i 2).val / 1024) + 3) % 4 = 3
    omega
  · show i ∈ ((View.whole main_v0_0).slice (win0_2.rect ⟨16 * (i 0).val + 4 * ((i 2).val / 1024) + 3, hlt⟩)).set
    rw [View.set_slice_whole, Rect.mem_set_unit]
    intro a
    match a with
    | ⟨0, _⟩ =>
      show win0_2.index ⟨16 * (i 0).val + 4 * ((i 2).val / 1024) + 3, hlt⟩ 0 * 1 ≤ (i 0).val
        ∧ (i 0).val < win0_2.index ⟨16 * (i 0).val + 4 * ((i 2).val / 1024) + 3, hlt⟩ 0 * 1 + 1
      rw [hi.1]
      show (16 * (i 0).val + 4 * ((i 2).val / 1024) + 3) / 16 * 1 ≤ (i 0).val
        ∧ (i 0).val < (16 * (i 0).val + 4 * ((i 2).val / 1024) + 3) / 16 * 1 + 1
      omega
    | ⟨1, _⟩ =>
      show win0_2.index ⟨16 * (i 0).val + 4 * ((i 2).val / 1024) + 3, hlt⟩ 1 * 1 ≤ (i 1).val
        ∧ (i 1).val < win0_2.index ⟨16 * (i 0).val + 4 * ((i 2).val / 1024) + 3, hlt⟩ 1 * 1 + 1
      rw [hi.2.1]
      omega
    | ⟨2, _⟩ =>
      show win0_2.index ⟨16 * (i 0).val + 4 * ((i 2).val / 1024) + 3, hlt⟩ 2 * 1024 ≤ (i 2).val
        ∧ (i 2).val < win0_2.index ⟨16 * (i 0).val + 4 * ((i 2).val / 1024) + 3, hlt⟩ 2 * 1024 + 1024
      rw [hi.2.2]
      show (16 * (i 0).val + 4 * ((i 2).val / 1024) + 3) / 4 % 4 * 1024 ≤ (i 2).val
        ∧ (i 2).val < (16 * (i 0).val + 4 * ((i 2).val / 1024) + 3) / 4 % 4 * 1024 + 1024
      omega

/-- After the region the first output array holds the row minima. -/
theorem final_row (c : Dev nD) : (dats m 0 c).arrAt 2 cfg0.N = rowMinArr m c :=
  (dats m 0 c).arrAt_eq_of_cover 2 (rowMinArr m c) (fun t hf => flushed_row m c t hf) (cover_row c)

/-- The column minimum at batch b and point q is the greatest lower bound of the distances to q from every point of
    the first cloud. -/
theorem colMinArr_glb (c : Dev nD) (b : Fin 8) (q : Fin 4096) :
    IsGlb (fun _ : Fin 4096 => True) (fun n : Fin 4096 => D m c b n q) (colMinArr m c (ix3 b (0 : Fin 1) q)) :=
  isGlb_fold_min (fun n : Fin 4096 => D m c b n q)

/-- What the last point of a batch writes back to the second output is its block of the column minima: the block is
    the whole row (batch, 0, ·) of 4096 entries; at that point the row block and the column block are both the last,
    so every stretch of the column accumulator has all four row blocks folded in and bounds the distances from the
    first 1024 · 4 = 4096 points, that is from all of them. -/
theorem flushed_col (c : Dev nD) (t : Fin cfg0.N) (hf : (cfg0.win 3).flush t = true) :
    (dats m 0 c).flushed 3 t = ((cfg0.win 3).blk t).view.read (Elt Ideal) (colMinArr m c) := by
  have h15 : t.val % 16 = 15 := (flush0_3 t).mp hf
  have hi := index3 t
  show (cfg0.win 3).cut (grid0.coords t) ((dats m 0 c).after 3 t) = _
  rw [after0_3]
  refine funext fun (y : S1x1x4096.Idx) => ?_
  obtain ⟨u, v, q, rfl⟩ : ∃ (u : Fin 1) (v : Fin 1) (q : Fin 4096), y = ix3 u v q := ⟨y 0, y 1, y 2, eq_ix3 y⟩
  obtain rfl : u = 0 := Subsingleton.elim _ _
  obtain rfl : v = 0 := Subsingleton.elim _ _
  rw [View.read_apply]
  show (outsAt0 m c t.val t.isLt).2.1 (ix3 (0 : Fin 1) (0 : Fin 1) q)
    = colMinArr m c (((cfg0.win 3).blk t).view.emb (ix3 (0 : Fin 1) (0 : Fin 1) q))
  have hemb : ((cfg0.win 3).blk t).view.emb (ix3 (0 : Fin 1) (0 : Fin 1) q)
      = (ix3 (batchOf t) (0 : Fin 1) q : S8x1x4096.Idx) := by
    funext a
    apply Fin.ext
    match a with
    | ⟨0, _⟩ =>
      show win0_3.index t 0 * 1 + 1 * (0 : Fin 1).val = (batchOf t).val
      rw [hi.1]; unfold batchOf; simp only [Fin.val_zero]; omega
    | ⟨1, _⟩ =>
      show win0_3.index t 1 * 1 + 1 * (0 : Fin 1).val = (0 : Fin 1).val
      rw [hi.2.1]; simp only [Fin.val_zero]
    | ⟨2, _⟩ =>
      show win0_3.index t 2 * 4096 + 1 * q.val = q.val
      rw [hi.2.2]; omega
  rw [hemb]
  have hH := holds m c t.val t.isLt
  rw [hH.colOut q]
  have hq := q.isLt
  have hall : IsGlb (fun _ : Fin 4096 => True) (fun n : Fin 4096 => D m c (batchOf t) n q)
      ((outsAt0 m c t.val t.isLt).2.2.2 (ix2 (0 : Fin 1) q)) :=
    (hH.col q).of_iff (fun n => ⟨fun _ => by
      have := n.isLt
      show n.val < 1024 * (t.val / 4 % 4 + (if q.val / 1024 < t.val % 4 + 1 then 1 else 0))
      rw [if_pos (by omega : q.val / 1024 < t.val % 4 + 1)]
      omega, fun _ => trivial⟩)
  exact hall.unique (colMinArr_glb m c (batchOf t) q)

/-- Every entry (b, 0, q) of the second output lies in a block that is written back: the block of the point 16 b + 15,
    the last point of batch b. -/
theorem cover_col (c : Dev nD) (i : S8x1x4096.Idx) :
    ∃ t : Fin cfg0.N, (cfg0.win 3).flush t = true ∧ i ∈ ((cfg0.win 3).blk t).view.set := by
  have hN := N_eq
  have h0 : (i 0).val < 8 := (i 0).isLt
  have h1 : (i 1).val < 1 := (i 1).isLt
  have h2 : (i 2).val < 4096 := (i 2).isLt
  have hlt : 16 * (i 0).val + 15 < cfg0.N := by omega
  have hi := index3 ⟨16 * (i 0).val + 15, hlt⟩
  refine ⟨⟨16 * (i 0).val + 15, hlt⟩, (flush0_3 _).mpr ?_, ?_⟩
  · show (16 * (i 0).val + 15) % 16 = 15
    omega
  · show i ∈ ((View.whole main_v0_1).slice (win0_3.rect ⟨16 * (i 0).val + 15, hlt⟩)).set
    rw [View.set_slice_whole, Rect.mem_set_unit]
    intro a
    match a with
    | ⟨0, _⟩ =>
      show win0_3.index ⟨16 * (i 0).val + 15, hlt⟩ 0 * 1 ≤ (i 0).val
        ∧ (i 0).val < win0_3.index ⟨16 * (i 0).val + 15, hlt⟩ 0 * 1 + 1
      rw [hi.1]
      show (16 * (i 0).val + 15) / 16 * 1 ≤ (i 0).val ∧ (i 0).val < (16 * (i 0).val + 15) / 16 * 1 + 1
      omega
    | ⟨1, _⟩ =>
      show win0_3.index ⟨16 * (i 0).val + 15, hlt⟩ 1 * 1 ≤ (i 1).val
        ∧ (i 1).val < win0_3.index ⟨16 * (i 0).val + 15, hlt⟩ 1 * 1 + 1
      rw [hi.2.1]
      omega
    | ⟨2, _⟩ =>
      show win0_3.index ⟨16 * (i 0).val + 15, hlt⟩ 2 * 4096 ≤ (i 2).val
        ∧ (i 2).val < win0_3.index ⟨16 * (i 0).val + 15, hlt⟩ 2 * 4096 + 4096
      rw [hi.2.2]
      omega

/-- After the region the second output array holds the column minima. -/
theorem final_col (c : Dev nD) : (dats m 0 c).arrAt 3 cfg0.N = colMinArr m c :=
  (dats m 0 c).arrAt_eq_of_cover 3 (colMinArr m c) (fun t hf => flushed_col m c t hf) (cover_col c)

end Cert.Chamfer.Final

end
-- ==== Proof.KernelRun.lean ====
/-
  The kernel program's run, read. After the region the two output arrays hold the row minima and the column minima;
  the lines of the program after the region reshape each 8 by 1 by 4096 array to 8 by 4096 and apply the closing
  average, so the program's one result is the closing average of those two arrays, and its arguments are as they were.
-/
import proofs.«124431_j6433861009596_1_alg».proof.Proof.Final
import Idealize.ShloMosaic.Lib.StableHlo.Run

set_option maxRecDepth 16384

noncomputable section

namespace Cert.Chamfer.Kernel

open Idealize.ShloMosaic Idealize.ShloMosaic.TcCoe Idealize.ShloMosaic.ValueIdx Idealize.SL.Sem
open Idealize.ShloMosaic.Pipeline (Dat)
open Cert.KernelIdeal Cert.KernelIdeal.Gen
open Cert.Chamfer.Final

variable (m : (ℓ : Loc nD τ sig) → Buf (Elt Ideal) ℓ) (ρ : Dev nD → PrngReg)

/-- The kernel program's result: the closing average of the column minima and the row minima, each reshaped from
    8 by 1 by 4096 to 8 by 4096. -/
def result (c : Dev nD) : Buf (Elt Ideal) ((c : Thread nD τ).loc main_v11) :=
  average reducesTo_S8x4096_S8_d1 h_S_ bcast_S_S8 reducesTo_S8_S_d0
    (shapeCast S8x4096 (colMinArr m c) shapeCasts_S8x1x4096_S8x4096)
    (shapeCast S8x4096 (rowMinArr m c) shapeCasts_S8x1x4096_S8x4096)

/-- What the lines after the region leave in the result buffer. -/
theorem tail_eq (c : Dev nD) :
    Pipeline.afterTail₀ cfgs (dats m) 0 (V0 m) [hostOps1] c main_v11 = result m c := by
  unfold Pipeline.afterTail₀
  show StableHlo.after hostOps1 _ (Proc.devRef .tc main_v11) = _
  after_results
  have ecol : Pipeline.withArrays (cfgs 0).spec c (V0 m c) (fun w => (dats m 0 c).arrAt w (cfgs 0).N)
      (Proc.devRef .tc main_v0_1) = colMinArr m c :=
    (Pipeline.withArrays_arr spec0 launch0.win.arr_inj c _ _ 3).trans (final_col m c)
  have erow : Pipeline.withArrays (cfgs 0).spec c (V0 m c) (fun w => (dats m 0 c).arrAt w (cfgs 0).N)
      (Proc.devRef .tc main_v0_0) = rowMinArr m c :=
    (Pipeline.withArrays_arr spec0 launch0.win.arr_inj c _ _ 2).trans (final_row m c)
  rw [ecol, erow]
  rfl

/-- Every weakly fair execution of the kernel program terminates with its result at the closing average of the two
    families of minima and its arguments unchanged. -/
theorem run : θ_run defs (onTc (τ := τ) (main (F := Ideal))) ⟨m, fun _ => 0, ρ⟩ fun r => ∀ c : Dev nD,
      r.2.mem ((c.tc : Thread nD τ).loc main_v11) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v11 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.Chamfer.Kernel

end
-- ==== Proof.RefMinima.lean ====
/-
  The reference program's two families of minima, read index by index off its run, and its result as the closing
  average of them. The reference forms the whole 8 by 4096 by 4096 array of pairwise distances at once: entry (b, n, m)
  is the distance of point n of the first cloud to point m of the second in batch b, through the squared-norm
  expansion, its squared norms sums from the zero word and its inner product one contraction over the 64 coordinates.
  It then takes, from +∞, the least entry along m for every (b, n) and the least entry along n for every (b, m): each is
  a fold of min over one axis, hence a greatest lower bound over all 4096 candidates.
-/
import proofs.«124431_j6433861009596_1_alg».proof.Proof.Gen.ReferenceIdeal.Read
import proofs.«124431_j6433861009596_1_alg».proof.Proof.ChamferSpec

noncomputable section

namespace Cert.Chamfer.Ref

open Idealize.ShloMosaic Idealize.ShloMosaic.ValueIdx
open Cert.ReferenceIdeal Cert.ReferenceIdeal.Gen Cert.ReferenceIdeal.Read

variable (X Y : (⟨S8x4096x64, .f32⟩ : BufTy).Contents (Elt Ideal))

/-- The squared norm of point n of the first cloud in batch b: the sum from the zero word is the plain sum. -/
private theorem sqnormX_apply (b : Fin 8) (n : Fin 4096) :
    val_main_v1 (F := Ideal) X (ix2 b n) = ∑ k : Fin 64, X (ix3 b n k) * X (ix3 b n k) := by
  have e : ∀ k : Fin 64, idx_main_v1 (ix2 b n) k = ix3 b n k := fun k =>
    funext fun a => Fin.ext (by match a with | ⟨0, _⟩ => rfl | ⟨1, _⟩ => rfl | ⟨2, _⟩ => rfl)
  rw [val_main_v1_apply, val_main_cst_apply]
  simp only [e, val_main_v0_apply, Ideal.mulf_def, Ideal.ofBits_def, Ideal.ofBits_zero_f32, zero_add]

/-- The squared norm of point m of the second cloud in batch b. -/
private theorem sqnormY_apply (b : Fin 8) (m : Fin 4096) :
    val_main_v3 (F := Ideal) Y (ix2 b m) = ∑ k : Fin 64, Y (ix3 b m k) * Y (ix3 b m k) := by
  have e : ∀ k : Fin 64, idx_main_v3 (ix2 b m) k = ix3 b m k := fun k =>
    funext fun a => Fin.ext (by match a with | ⟨0, _⟩ => rfl | ⟨1, _⟩ => rfl | ⟨2, _⟩ => rfl)
  rw [val_main_v3_apply, val_main_cst_0_apply]
  simp only [e, val_main_v2_apply, Ideal.mulf_def, Ideal.ofBits_def, Ideal.ofBits_zero_f32, zero_add]

/-- The inner product of point n of the first cloud with point m of the second in batch b. -/
private theorem inner_apply (b : Fin 8) (n m : Fin 4096) :
    val_main_v4 (F := Ideal) X Y (ix3 b n m) = ∑ k : Fin 64, X (ix3 b n k) * Y (ix3 b m k) := by
  have el : ∀ k : Fin 64, lidx_main_v4 (ix3 b n m) k = ix3 b n k := fun k =>
    funext fun a => Fin.ext (by match a with | ⟨0, _⟩ => rfl | ⟨1, _⟩ => rfl | ⟨2, _⟩ => rfl)
  have er : ∀ k : Fin 64, ridx_main_v4 (ix3 b n m) k = ix3 b m k := fun k =>
    funext fun a => Fin.ext (by match a with | ⟨0, _⟩ => rfl | ⟨1, _⟩ => rfl | ⟨2, _⟩ => rfl)
  rw [val_main_v4_apply]
  simp only [el, er]

/-- Entry (b, n, m) of the reference's distance array is the distance of point n of the first cloud to point m of the
    second, in batch b. -/
theorem dist_apply (b : Fin 8) (n m : Fin 4096) :
    val_main_v15 (F := Ideal) X Y (ix3 b n m)
      = dist (fun k : Fin 64 => X (ix3 b n k)) (fun k : Fin 64 => Y (ix3 b m k)) := by
  have e5 : idx_main_v5 (idx_main_v7 (ix3 b n m)) = ix2 b n :=
    funext fun a => Fin.ext (by match a with | ⟨0, _⟩ => rfl | ⟨1, _⟩ => rfl)
  have e6 : idx_main_v6 (idx_main_v8 (ix3 b n m)) = ix2 b m :=
    funext fun a => Fin.ext (by match a with | ⟨0, _⟩ => rfl | ⟨1, _⟩ => rfl)
  rw [val_main_v15_apply, val_main_v14_apply, val_main_v12_apply, val_main_v9_apply, val_main_v7_apply,
    val_main_v5_apply, val_main_v8_apply, val_main_v6_apply, val_main_v11_apply, val_main_v10_apply,
    val_main_cst_1_apply, val_main_v13_apply, val_main_cst_2_apply, e5, e6, sqnormX_apply, sqnormY_apply,
    inner_apply]
  rfl

/-- The reduced index (b, n) with coordinate k put back on the last axis is (b, n, k). -/
private theorem lift_last (h : S8x4096x4096.Reduces [2] S8x4096) (b : Fin 8) (n : Fin 4096)
    (k : Fin (S8x4096x4096.size 2)) : h.lift (ix2 b n) k = ix3 b n (⟨k.val, k.isLt⟩ : Fin 4096) := by
  funext c; apply Fin.ext
  match c with | ⟨0, _⟩ => rfl | ⟨1, _⟩ => rfl | ⟨2, _⟩ => rfl

/-- The reduced index (b, m) with coordinate k put back on the middle axis is (b, k, m). -/
private theorem lift_mid (h : S8x4096x4096.Reduces [1] S8x4096) (b : Fin 8) (m : Fin 4096)
    (k : Fin (S8x4096x4096.size 1)) : h.lift (ix2 b m) k = ix3 b (⟨k.val, k.isLt⟩ : Fin 4096) m := by
  funext c; apply Fin.ext
  match c with | ⟨0, _⟩ => rfl | ⟨1, _⟩ => rfl | ⟨2, _⟩ => rfl

/-- The reference's minimum along the second cloud, at (b, n), is the greatest lower bound of the distances of point n
    to all 4096 points of the second cloud. -/
theorem rowMin_glb (b : Fin 8) (n : Fin 4096) :
    IsGlb (fun _ : Fin 4096 => True)
      (fun m : Fin 4096 => dist (fun k : Fin 64 => X (ix3 b n k)) (fun k : Fin 64 => Y (ix3 b m k)))
      (val_main_v20 (F := Ideal) X Y (ix2 b n)) := by
  have h : S8x4096x4096.Reduces [2] S8x4096 := by decide
  have hf : (val_main_v15 (F := Ideal) X Y ∘ h.lift (ix2 b n))
      = fun m : Fin 4096 => dist (fun k : Fin 64 => X (ix3 b n k)) (fun k : Fin 64 => Y (ix3 b m k)) :=
    funext fun m => by
      show val_main_v15 (F := Ideal) X Y (h.lift (ix2 b n) m) = _
      rw [lift_last, dist_apply]
      rfl
  have key := Host.reduce_eq_fold_single (α := Ideal .f32) (FloatOps.minimumf (F := Ideal) (φ := .f32))
    (val_main_v15 (F := Ideal) X Y) (val_main_cst_6 (F := Ideal)) reducesTo_S8x4096x4096_S8x4096_d2 h h_S_ (ix2 b n)
  unfold val_main_v20
  rw [key, hf, val_main_cst_6_apply]
  show IsGlb _ _ ((Finset.univ : Finset (Fin 4096)).fold min (Ideal.ofBits .f32 0x7F800000#32) _)
  rw [ofBits_inf]
  exact isGlb_fold_min _

/-- The reference's minimum along the first cloud, at (b, m), is the greatest lower bound of the distances of all 4096
    points of the first cloud to point m. -/
theorem colMin_glb (b : Fin 8) (m : Fin 4096) :
    IsGlb (fun _ : Fin 4096 => True)
      (fun n : Fin 4096 => dist (fun k : Fin 64 => X (ix3 b n k)) (fun k : Fin 64 => Y (ix3 b m k)))
      (val_main_v16 (F := Ideal) X Y (ix2 b m)) := by
  have h : S8x4096x4096.Reduces [1] S8x4096 := by decide
  have hf : (val_main_v15 (F := Ideal) X Y ∘ h.lift (ix2 b m))
      = fun n : Fin 4096 => dist (fun k : Fin 64 => X (ix3 b n k)) (fun k : Fin 64 => Y (ix3 b m k)) :=
    funext fun n => by
      show val_main_v15 (F := Ideal) X Y (h.lift (ix2 b m) n) = _
      rw [lift_mid, dist_apply]
      rfl
  have key := Host.reduce_eq_fold_single (α := Ideal .f32) (FloatOps.minimumf (F := Ideal) (φ := .f32))
    (val_main_v15 (F := Ideal) X Y) (val_main_cst_3 (F := Ideal)) reducesTo_S8x4096x4096_S8x4096_d1 h h_S_ (ix2 b m)
  unfold val_main_v16
  rw [key, hf, val_main_cst_3_apply]
  show IsGlb _ _ ((Finset.univ : Finset (Fin 4096)).fold min (Ideal.ofBits .f32 0x7F800000#32) _)
  rw [ofBits_inf]
  exact isGlb_fold_min _

/-- The reference's result is the closing average of its column minima and its row minima. -/
theorem result_eq :
    val_main_v26 (F := Ideal) X Y
      = average reducesTo_S8x4096_S8_d1 h_S_ bcast_S_S8 reducesTo_S8_S_d0
          (val_main_v16 (F := Ideal) X Y) (val_main_v20 (F := Ideal) X Y) := by
  rfl

end Cert.Chamfer.Ref

end
-- ==== Proof.Bridge.lean ====
/-
  The two programs meet. The reference's minimum along the second cloud at (b, n) and the kernel region's first output
  array at (b, 0, n) are both the greatest lower bound of the distances of point n to all 4096 points of the second
  cloud, over the same two argument arrays; a family has one greatest lower bound, so they are equal, and likewise
  the minima along the first cloud. The host's reshape of an 8 by 1 by 4096 array to 8 by 4096 only drops the unit
  axis.
-/
import proofs.«124431_j6433861009596_1_alg».proof.Proof.Final
import proofs.«124431_j6433861009596_1_alg».proof.Proof.RefMinima
import Idealize.ShloMosaic.Lib.Pipeline.Value

set_option maxRecDepth 16384

noncomputable section

namespace Cert.Chamfer.Bridge

open Idealize.ShloMosaic Idealize.ShloMosaic.TcCoe Idealize.ShloMosaic.ValueIdx Idealize.SL.Sem
open Cert.KernelIdeal Cert.KernelIdeal.Gen
open Cert.Chamfer.Blocks Cert.Chamfer.Inv Cert.Chamfer.Final

variable (m : (ℓ : Loc nD τ sig) → Buf (Elt Ideal) ℓ)

/-- The reshape that drops the unit axis, read at an entry. -/
theorem reshape_apply (v : Vec Ideal S8x1x4096 .f32) (b : Fin 8) (n : Fin 4096) :
    shapeCast S8x4096 v shapeCasts_S8x1x4096_S8x4096 (ix2 b n) = v (ix3 b (0 : Fin 1) n) :=
  shapeCast_apply v _ _ _ (by
    rw [Shape.rowMajor_val_three, Shape.rowMajor_val_two]
    show (b.val * 1 + 0) * 4096 + n.val = b.val * 4096 + n.val
    omega)

/-- The reference's minima along the second cloud are the kernel's first output array, reshaped. -/
theorem rows_eq (c : Dev nD) :
    Cert.ReferenceIdeal.Read.val_main_v20 (F := Ideal) (xarr m c) (yarr m c)
      = shapeCast S8x4096 (rowMinArr m c) shapeCasts_S8x1x4096_S8x4096 := by
  funext i
  obtain ⟨b, n, rfl⟩ : ∃ (b : Fin 8) (n : Fin 4096), i = ix2 b n := ⟨i 0, i 1, eq_ix2 i⟩
  rw [reshape_apply]
  exact (Cert.Chamfer.Ref.rowMin_glb (xarr m c) (yarr m c) b n).unique
    (isGlb_fold_min (fun q : Fin 4096 => D m c b n q))

/-- The reference's minima along the first cloud are the kernel's second output array, reshaped. -/
theorem cols_eq (c : Dev nD) :
    Cert.ReferenceIdeal.Read.val_main_v16 (F := Ideal) (xarr m c) (yarr m c)
      = shapeCast S8x4096 (colMinArr m c) shapeCasts_S8x1x4096_S8x4096 := by
  funext i
  obtain ⟨b, q, rfl⟩ : ∃ (b : Fin 8) (q : Fin 4096), i = ix2 b q := ⟨i 0, i 1, eq_ix2 i⟩
  rw [reshape_apply]
  exact (Cert.Chamfer.Ref.colMin_glb (xarr m c) (yarr m c) b q).unique
    (isGlb_fold_min (fun n : Fin 4096 => D m c b n q))

end Cert.Chamfer.Bridge

end
-- ==== Proof.lean ====
/-
  The certificate of a fused nearest-point kernel against its array-at-once reference.

  Both programs take two batches of 8 clouds of 4096 points with 64 coordinates, form every pairwise distance of a
  point u of the first cloud to a point v of the second through sqrt (max ((|u|² + |v|²) − 2·⟨u, v⟩) 0), keep for each
  u the least distance over all v and for each v the least over all u, and return the mean over the batches of the sum
  of the two families' means. The reference forms the whole 8 by 4096 by 4096 array and reduces it along each axis.
  The kernel walks a grid of 8 by 4 by 4 points, forms one 1024 by 1024 tile of distances per point, and folds the
  tile's row minima and column minima into two running-minimum accumulators that start at +∞: the row accumulator is
  complete after the fourth column block of a row block, the column accumulator after the last point of a batch, and
  that is when their blocks are written back. Over the extended reals a change of float format is the identity and a
  matrix product into zero is a plain sum, so a tile entry is the reference's entry; the minimum of four block minima
  from +∞ is the minimum over all 4096 candidates, which is the only law that joins the two sides, and it holds
  without asking the inputs to be finite. The closing averages are the same operations on both sides.

  The three frames: the kernel's two are its generated frame certificates, the reference's is its generated run with
  the result dropped. The idealization rewrote no operation, so that conjunct is trivial. The value claim: the kernel
  program's run ends at the closing average of its two final arrays (induction over the grid points, the blocks
  written back covering the arrays, the lines after the region read as one term), the reference's run at the closing
  average of its two reductions, and the two pairs of arrays are equal because a family has one greatest lower bound.
-/
import proofs.«124431_j6433861009596_1_alg».proof.Defs
import proofs.«124431_j6433861009596_1_alg».proof.Proof.Gen.Kernel
import proofs.«124431_j6433861009596_1_alg».proof.Proof.Gen.Kernel.Skeleton
import proofs.«124431_j6433861009596_1_alg».proof.Proof.Gen.Kernel.Launch
import proofs.«124431_j6433861009596_1_alg».proof.Proof.Gen.Kernel.Points
import proofs.«124431_j6433861009596_1_alg».proof.Proof.Gen.Kernel.Frame
import proofs.«124431_j6433861009596_1_alg».proof.Proof.Gen.KernelIdeal
import proofs.«124431_j6433861009596_1_alg».proof.Proof.Gen.KernelIdeal.Skeleton
import proofs.«124431_j6433861009596_1_alg».proof.Proof.Gen.KernelIdeal.Launch
import proofs.«124431_j6433861009596_1_alg».proof.Proof.Gen.KernelIdeal.Points
import proofs.«124431_j6433861009596_1_alg».proof.Proof.Gen.KernelIdeal.Frame
import proofs.«124431_j6433861009596_1_alg».proof.Proof.Gen.ReferenceIdeal
import proofs.«124431_j6433861009596_1_alg».proof.Proof.Gen.ReferenceIdeal.Run
import proofs.«124431_j6433861009596_1_alg».proof.Proof.Gen.ReferenceIdeal.Read
import proofs.«124431_j6433861009596_1_alg».proof.Proof.Gen.Pre_finite_inputs
import proofs.«124431_j6433861009596_1_alg».proof.Proof.KernelRun
import proofs.«124431_j6433861009596_1_alg».proof.Proof.Bridge
import Idealize.ShloMosaic.Adequacy
import Idealize.ShloMosaic.Init

noncomputable section

namespace Cert.Proof

open Idealize.ShloMosaic Idealize.ShloMosaic.TcCoe Idealize.SL.Sem

/-- The kernel program as printed runs and leaves its arguments unchanged. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and leaves its arguments unchanged: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the two argument arrays both programs end at one value: the closing average of the
    row minima and the column minima of the pairwise distances. -/
theorem algebraic : Cert.algebraic_KernelIdeal_ReferenceIdeal := by
  intro m ρ m' ρ' _ hagree
  refine ⟨fun c => Cert.Chamfer.Kernel.result m c, Cert.Chamfer.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, Cert.Chamfer.Ref.result_eq, (hagree c).1, (hagree c).2]
  rw [Cert.Chamfer.Bridge.cols_eq m c, Cert.Chamfer.Bridge.rows_eq m c]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
